-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S288x256 : Shape := ⟨2, ![288, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 32 := constantI S_ 32 50000#32
  let main_v71 : IVec S2x800000 32 := broadcastInDim S2x800000 ![] bcast_S_S2x800000 main_c_27
  let main_v72 : IVec S2x800000 1 := cmpi .slt main_arg1 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg1 : IVec S2x800000 32) (main_arg12 : FVec F S128 .f32) (main_arg13 : FVec F S128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x800000 32) (main_arg8 : FVec F S128 .f32) (main_arg9 : FVec F S256x256 .f32) (main_arg10 : FVec F S256 .f32) (main_arg11 : FVec F S256x128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_v48 main_v49 main_v50

def fn_part1 {F : FTy → Type} [FloatOps F] (main_arg1 : IVec S2x800000 32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128 .f32) (main_arg14 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x32 .f32) (main_arg3 : FVec F S288x256 .f32) (main_arg4 : FVec F S256 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S288x256 .f32 := Host.absf main_arg3
  let main_cst_2 : FVec F S_ .f32 := constant S_ .f32 0x7F800000#32
  let main_v10 : FVec F S288x256 .f32 := broadcastInDim S288x256 ![] bcast_S_S288x256 main_cst_2
  let main_v11 : IVec S288x256 1 := cmpf .olt main_v9 main_v10
  let main_c_3 : IVec S_ 1 := constantI S_ 1 1#1
  let main_v12 : IVec S_ 1 := (fun x v => Host.reduce IntOp.andi x v reducesTo_S288x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S288x256 : Shape := ⟨2, ![288, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x256 : Shape := ⟨2, ![1, 256]⟩
abbrev S1x128 : Shape := ⟨2, ![1, 128]⟩
abbrev S4000x128 : Shape := ⟨2, ![4000, 128]⟩
abbrev S4000x32 : Shape := ⟨2, ![4000, 32]⟩
abbrev S4000x288 : Shape := ⟨2, ![4000, 288]⟩
abbrev S4000x256 : Shape := ⟨2, ![4000, 256]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 78
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x128, .f32⟩
  | .hbm, ⟨61, _⟩ => ⟨S800000x128, .i1⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S1x256, .f32⟩
  | .hbm, ⟨66, _⟩ => ⟨S1x256, .f32⟩
  | .hbm, ⟨67, _⟩ => ⟨S1x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x256, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S288x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S256x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_cst : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S288x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  concatenates_S4000x128_S4000x128_S4000x32_S4000x288_d1 : Shape.Concatenates [S4000x128, S4000x128, S4000x32] S4000x288 1
  bitsLt_bf16_f32 : FTy.bits .bf16 < FTy.bits .f32
  inb_S288x256_S288x256_0_0 : ∀ a, (![0, 0] : Fin 2 → Nat) a + S288x256.size a ≤ S288x256.size a
  h_S288x256 : 0 < S288x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  broadcasts_S1x256_S5000x256 : S1x256.Broadcasts S5000x256
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  dot_S4000x288_S288x256_S4000x256_1_0_0_1_n_n_wf : DotDims.WF S4000x288 S288x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  scatter_S50000x128_S800000x1_S800000x128_1_0_0_1_wf : ScatterDims.WF S50000x128 S800000x1 S800000x128 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S800000x32.size a
  hwx0_2 : ∀ i : grid0.Coords, EltTy.bits .f32 = 32 ∨ (Rect.block (s := S800000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x256.size a ≤ S288x256.size a
  hwx0_3 : ∀ i : grid0.Coords, EltTy.bits .f32 = 32 ∨ (Rect.block (s := S288x256) S288x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S800000x128.size a
  hwx0_9 : ∀ i : grid0.Coords, EltTy.bits .f32 = 32 ∨ (Rect.block (s := S800000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x288_S288x256_S4000x256_1_0_0_1_n_n : DotDims S4000x288 S288x256 S4000x256 where
  lhsContracting := [1]
  rhsContracting := [0]
  lhsNonContracting := [0]
  rhsNonContracting := [1]
  lhsBatch := []
  rhsBatch := []
  wf := dot_S4000x288_S288x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S288x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S288x256 : Shape := ⟨2, ![288, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S800000x256 : Shape := ⟨2, ![800000, 256]⟩
abbrev S1x256 : Shape := ⟨2, ![1, 256]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x288, .f32⟩
  | .hbm, ⟨38, _⟩ => ⟨S800000x256, .f32⟩
  | .hbm, ⟨39, _⟩ => ⟨S1x256, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S800000x256, .f32⟩
  | .hbm, ⟨44, _⟩ => ⟨S800000x256, .f32⟩
  | .hbm, ⟨45, _⟩ => ⟨S800000x256, .f32⟩
  | .hbm, ⟨46, _⟩ => ⟨S1x256, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S800000x256, .f32⟩
  | .hbm, ⟨51, _⟩ => ⟨S800000x256, .f32⟩
  | .hbm, ⟨52, _⟩ => ⟨S800000x128, .f32⟩
  | .hbm, ⟨53, _⟩ => ⟨S1x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call2_cst : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x288_S288x256_S800000x256_1_0_0_1_n_n_wf : DotDims.WF S800000x288 S288x256 S800000x256 [1] [0] [0] [1] [] []
  dot_S800000x256_S256x256_S800000x256_1_0_0_1_n_n_wf : DotDims.WF S800000x256 S256x256 S800000x256 [1] [0] [0] [1] [] []
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x256_S800000x256_1_0_0_1_n_n : DotDims S800000x288 S288x256 S800000x256 where
  lhsContracting := [1]
  rhsContracting := [0]
  lhsNonContracting := [0]
  rhsNonContracting := [1]
  lhsBatch := []
  rhsBatch := []
  wf := dot_S800000x288_S288x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.EdgeRegion.lean ====
import proofs.«416344_j59064390255196_1_alg».proof.Proof.Gen.KernelIdeal.Frame
import proofs.«416344_j59064390255196_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.SL.Sem Idealize.ShloMosaic.ValueIdx
open Idealize.ShloMosaic.Pipeline (Dat)

/-! # The edge region: the array its write-backs leave is the reference's edge network

The region's body loads nine whole blocks, runs three dense layers on them and stores the result over its whole output
block. Grid point `t` of 200 handles rows `4000 t … 4000 t + 3999`. Below: the body's three layers named as functions of
the loaded blocks; a product into a zero accumulator read at a point as the sum over the contracted coordinate; the
three-piece join read at a column; then one lemma per layer, "the kernel's layer at row `p` of block `t` is the reference's
stage at row `4000 t + p`", each using the one before inside its sum; the windows' blocks read at a point; and the
200 blocks of 4000 rows tile the 800000 rows, so the array ends holding the reference's stage everywhere. Both sides do
the same additions and multiplications in the same order: the only law used is `0 + x = x` for the zero accumulator. -/

theorem hz : (![0, 0] : Fin 2 → Nat) = fun _ => 0 := funext fun a => by fin_cases a <;> rfl

/-! ## The body's three layers -/

/-- Layer 1 on the loaded blocks: join `[xr, xc, ea]` along the columns, multiply by `W1`, add the bias row, clamp at zero. -/
def kL1 (xr xc : Vec Ideal S4000x128 .f32) (ea : Vec Ideal S4000x32 .f32) (W1 : Vec Ideal S288x256 .f32)
    (b1 : Vec Ideal S1x256 .f32) : FVec Ideal S4000x256 .f32 :=
  maximumf
    (addf
      (matmul dot_S4000x288_S288x256_S4000x256_1_0_0_1_n_n none
        (truncf .bf16 (concatenate S4000x288 1 [⟨S4000x128, shapeCast S4000x128 xr shapeCasts_S4000x128_S4000x128⟩,
          ⟨S4000x128, shapeCast S4000x128 xc shapeCasts_S4000x128_S4000x128⟩, ⟨S4000x32, ea⟩]
          concatenates_S4000x128_S4000x128_S4000x32_S4000x288_d1) bitsLt_bf16_f32)
        (truncf .bf16 W1 bitsLt_bf16_f32) (constant S4000x256 .f32 0x00000000#32))
      (broadcastTo S4000x256 (shapeCast S1x256 b1 shapeCasts_S1x256_S1x256) broadcasts_S1x256_S4000x256))
    (broadcast S4000x256 (Scalar.ofBits .f32 0x00000000#32))

/-- Layer 2 on layer 1's result: multiply by `W2`, add the bias row, clamp at zero. -/
def kL2 (h1 : FVec Ideal S4000x256 .f32) (W2 : Vec Ideal S256x256 .f32) (b2 : Vec Ideal S1x256 .f32) :
    FVec Ideal S4000x256 .f32 :=
  maximumf
    (addf
      (matmul dot_S4000x256_S256x256_S4000x256_1_0_0_1_n_n none (truncf .bf16 h1 bitsLt_bf16_f32)
        (truncf .bf16 W2 bitsLt_bf16_f32) (constant S4000x256 .f32 0x00000000#32))
      (broadcastTo S4000x256 (shapeCast S1x256 b2 shapeCasts_S1x256_S1x256) broadcasts_S1x256_S4000x256))
    (broadcast S4000x256 (Scalar.ofBits .f32 0x00000000#32))

/-- Layer 3 on layer 2's result: multiply by `W3`, add the bias row. -/
def kL3 (h2 : FVec Ideal S4000x256 .f32) (W3 : Vec Ideal S256x128 .f32) (b3 : Vec Ideal S1x128 .f32) :
    FVec Ideal S4000x128 .f32 :=
  addf
    (matmul dot_S4000x256_S256x128_S4000x128_1_0_0_1_n_n none (truncf .bf16 h2 bitsLt_bf16_f32)
      (truncf .bf16 W3 bitsLt_bf16_f32) (constant S4000x128 .f32 0x00000000#32))
    (broadcastTo S4000x128 (shapeCast S1x128 b3 shapeCasts_S1x128_S1x128) broadcasts_S1x128_S4000x128)

/-- The body's stored value is the three layers composed. -/
theorem pay_eq (xr xc : Vec Ideal S4000x128 .f32) (ea : Vec Ideal S4000x32 .f32) (W1 : Vec Ideal S288x256 .f32)
    (b1 : Vec Ideal S1x256 .f32) (W2 : Vec Ideal S256x256 .f32) (b2 : Vec Ideal S1x256 .f32)
    (W3 : Vec Ideal S256x128 .f32) (b3 : Vec Ideal S1x128 .f32) :
    k0_pay1 xr xc ea W1 b1 W2 b2 W3 b3 = kL3 (kL2 (kL1 xr xc ea W1 b1) W2 b2) W3 b3 := rfl

/-! ## The three products read at a point

Each product contracts the left operand's columns with the right operand's rows: at output `(p, k)` and contraction
coordinate `j` the operands are read at `(p, j)` and `(j, k)`. -/

theorem lhs1_0 (j : S4000x256.Idx) (q : dot_S4000x288_S288x256_S4000x256_1_0_0_1_n_n.contr.Idx) :
    (dot_S4000x288_S288x256_S4000x256_1_0_0_1_n_n.lhsIdx j q 0).val = (j 0).val := rfl
theorem lhs1_1 (j : S4000x256.Idx) (q : dot_S4000x288_S288x256_S4000x256_1_0_0_1_n_n.contr.Idx) :
    (dot_S4000x288_S288x256_S4000x256_1_0_0_1_n_n.lhsIdx j q 1).val = (q ⟨0, by decide⟩).val := rfl
theorem rhs1_0 (j : S4000x256.Idx) (q : dot_S4000x288_S288x256_S4000x256_1_0_0_1_n_n.contr.Idx) :
    (dot_S4000x288_S288x256_S4000x256_1_0_0_1_n_n.rhsIdx j q 0).val = (q ⟨0, by decide⟩).val := rfl
theorem rhs1_1 (j : S4000x256.Idx) (q : dot_S4000x288_S288x256_S4000x256_1_0_0_1_n_n.contr.Idx) :
    (dot_S4000x288_S288x256_S4000x256_1_0_0_1_n_n.rhsIdx j q 1).val = (j 1).val := rfl

/-- Layer 1's product into the zero accumulator, at `(p, k)`: the sum over the 288 joined columns. -/
theorem mm1_apply (L : FVec Ideal S4000x288 .bf16) (R : FVec Ideal S288x256 .bf16) (p : Fin 4000) (k : Fin 256) :
    matmul dot_S4000x288_S288x256_S4000x256_1_0_0_1_n_n none L R (constant S4000x256 .f32 0x00000000#32) (ix2 p k)
      = ∑ j : Fin 288, L (ix2 p j) * R (ix2 j k) := by
  refine (Ideal.matmul_constant_zero_apply _ none L R (ix2 p k)).trans ?_
  rw [← Equiv.sum_comp (contrEquiv1 dot_S4000x288_S288x256_S4000x256_1_0_0_1_n_n 288 rfl rfl).symm]
  refine Finset.sum_congr rfl fun j _ => ?_
  have hj := contrEquiv1_symm_val dot_S4000x288_S288x256_S4000x256_1_0_0_1_n_n 288 rfl rfl j
  have el : dot_S4000x288_S288x256_S4000x256_1_0_0_1_n_n.lhsIdx (ix2 p k)
      ((contrEquiv1 dot_S4000x288_S288x256_S4000x256_1_0_0_1_n_n 288 rfl rfl).symm j) = ix2 p j :=
    funext fun a => Fin.ext (by
      match a with
      | ⟨0, _⟩ => exact lhs1_0 _ _
      | ⟨1, _⟩ => exact (lhs1_1 _ _).trans hj)
  have er : dot_S4000x288_S288x256_S4000x256_1_0_0_1_n_n.rhsIdx (ix2 p k)
      ((contrEquiv1 dot_S4000x288_S288x256_S4000x256_1_0_0_1_n_n 288 rfl rfl).symm j) = ix2 j k :=
    funext fun a => Fin.ext (by
      match a with
      | ⟨0, _⟩ => exact (rhs1_0 _ _).trans hj
      | ⟨1, _⟩ => exact rhs1_1 _ _)
  rw [el, er]

theorem lhs2_0 (j : S4000x256.Idx) (q : dot_S4000x256_S256x256_S4000x256_1_0_0_1_n_n.contr.Idx) :
    (dot_S4000x256_S256x256_S4000x256_1_0_0_1_n_n.lhsIdx j q 0).val = (j 0).val := rfl
theorem lhs2_1 (j : S4000x256.Idx) (q : dot_S4000x256_S256x256_S4000x256_1_0_0_1_n_n.contr.Idx) :
    (dot_S4000x256_S256x256_S4000x256_1_0_0_1_n_n.lhsIdx j q 1).val = (q ⟨0, by decide⟩).val := rfl
theorem rhs2_0 (j : S4000x256.Idx) (q : dot_S4000x256_S256x256_S4000x256_1_0_0_1_n_n.contr.Idx) :
    (dot_S4000x256_S256x256_S4000x256_1_0_0_1_n_n.rhsIdx j q 0).val = (q ⟨0, by decide⟩).val := rfl
theorem rhs2_1 (j : S4000x256.Idx) (q : dot_S4000x256_S256x256_S4000x256_1_0_0_1_n_n.contr.Idx) :
    (dot_S4000x256_S256x256_S4000x256_1_0_0_1_n_n.rhsIdx j q 1).val = (j 1).val := rfl

/-- Layer 2's product into the zero accumulator, at `(p, k)`: the sum over the 256 hidden columns. -/
theorem mm2_apply (L : FVec Ideal S4000x256 .bf16) (R : FVec Ideal S256x256 .bf16) (p : Fin 4000) (k : Fin 256) :
    matmul dot_S4000x256_S256x256_S4000x256_1_0_0_1_n_n none L R (constant S4000x256 .f32 0x00000000#32) (ix2 p k)
      = ∑ j : Fin 256, L (ix2 p j) * R (ix2 j k) := by
  refine (Ideal.matmul_constant_zero_apply _ none L R (ix2 p k)).trans ?_
  rw [← Equiv.sum_comp (contrEquiv1 dot_S4000x256_S256x256_S4000x256_1_0_0_1_n_n 256 rfl rfl).symm]
  refine Finset.sum_congr rfl fun j _ => ?_
  have hj := contrEquiv1_symm_val dot_S4000x256_S256x256_S4000x256_1_0_0_1_n_n 256 rfl rfl j
  have el : dot_S4000x256_S256x256_S4000x256_1_0_0_1_n_n.lhsIdx (ix2 p k)
      ((contrEquiv1 dot_S4000x256_S256x256_S4000x256_1_0_0_1_n_n 256 rfl rfl).symm j) = ix2 p j :=
    funext fun a => Fin.ext (by
      match a with
      | ⟨0, _⟩ => exact lhs2_0 _ _
      | ⟨1, _⟩ => exact (lhs2_1 _ _).trans hj)
  have er : dot_S4000x256_S256x256_S4000x256_1_0_0_1_n_n.rhsIdx (ix2 p k)
      ((contrEquiv1 dot_S4000x256_S256x256_S4000x256_1_0_0_1_n_n 256 rfl rfl).symm j) = ix2 j k :=
    funext fun a => Fin.ext (by
      match a with
      | ⟨0, _⟩ => exact (rhs2_0 _ _).trans hj
      | ⟨1, _⟩ => exact rhs2_1 _ _)
  rw [el, er]

theorem lhs3_0 (j : S4000x128.Idx) (q : dot_S4000x256_S256x128_S4000x128_1_0_0_1_n_n.contr.Idx) :
    (dot_S4000x256_S256x128_S4000x128_1_0_0_1_n_n.lhsIdx j q 0).val = (j 0).val := rfl
theorem lhs3_1 (j : S4000x128.Idx) (q : dot_S4000x256_S256x128_S4000x128_1_0_0_1_n_n.contr.Idx) :
    (dot_S4000x256_S256x128_S4000x128_1_0_0_1_n_n.lhsIdx j q 1).val = (q ⟨0, by decide⟩).val := rfl
theorem rhs3_0 (j : S4000x128.Idx) (q : dot_S4000x256_S256x128_S4000x128_1_0_0_1_n_n.contr.Idx) :
    (dot_S4000x256_S256x128_S4000x128_1_0_0_1_n_n.rhsIdx j q 0).val = (q ⟨0, by decide⟩).val := rfl
theorem rhs3_1 (j : S4000x128.Idx) (q : dot_S4000x256_S256x128_S4000x128_1_0_0_1_n_n.contr.Idx) :
    (dot_S4000x256_S256x128_S4000x128_1_0_0_1_n_n.rhsIdx j q 1).val = (j 1).val := rfl

/-- Layer 3's product into the zero accumulator, at `(p, k)`: the sum over the 256 hidden columns. -/
theorem mm3_apply (L : FVec Ideal S4000x256 .bf16) (R : FVec Ideal S256x128 .bf16) (p : Fin 4000) (k : Fin 128) :
    matmul dot_S4000x256_S256x128_S4000x128_1_0_0_1_n_n none L R (constant S4000x128 .f32 0x00000000#32) (ix2 p k)
      = ∑ j : Fin 256, L (ix2 p j) * R (ix2 j k) := by
  refine (Ideal.matmul_constant_zero_apply _ none L R (ix2 p k)).trans ?_
  rw [← Equiv.sum_comp (contrEquiv1 dot_S4000x256_S256x128_S4000x128_1_0_0_1_n_n 256 rfl rfl).symm]
  refine Finset.sum_congr rfl fun j _ => ?_
  have hj := contrEquiv1_symm_val dot_S4000x256_S256x128_S4000x128_1_0_0_1_n_n 256 rfl rfl j
  have el : dot_S4000x256_S256x128_S4000x128_1_0_0_1_n_n.lhsIdx (ix2 p k)
      ((contrEquiv1 dot_S4000x256_S256x128_S4000x128_1_0_0_1_n_n 256 rfl rfl).symm j) = ix2 p j :=
    funext fun a => Fin.ext (by
      match a with
      | ⟨0, _⟩ => exact lhs3_0 _ _
      | ⟨1, _⟩ => exact (lhs3_1 _ _).trans hj)
  have er : dot_S4000x256_S256x128_S4000x128_1_0_0_1_n_n.rhsIdx (ix2 p k)
      ((contrEquiv1 dot_S4000x256_S256x128_S4000x128_1_0_0_1_n_n 256 rfl rfl).symm j) = ix2 j k :=
    funext fun a => Fin.ext (by
      match a with
      | ⟨0, _⟩ => exact (rhs3_0 _ _).trans hj
      | ⟨1, _⟩ => exact rhs3_1 _ _)
  rw [el, er]

/-! ## The join read at a column -/

/-- Three pieces of widths 128, 128 and 32 joined along the columns, read at `(r, j)`: the piece whose span holds `j`,
    at `j` less the widths before it — for any number of rows, so that the kernel's block and the reference's array read alike. -/
theorem cat3_apply {α : Type} {n : Nat} (A B : (⟨2, ![n, 128]⟩ : Shape).Idx → α) (E : (⟨2, ![n, 32]⟩ : Shape).Idx → α)
    (h : Shape.Concatenates [(⟨2, ![n, 128]⟩ : Shape), ⟨2, ![n, 128]⟩, ⟨2, ![n, 32]⟩] ⟨2, ![n, 288]⟩ 1)
    (r : Fin n) (j : Fin 288) :
    concatenate ⟨2, ![n, 288]⟩ 1 [⟨⟨2, ![n, 128]⟩, A⟩, ⟨⟨2, ![n, 128]⟩, B⟩, ⟨⟨2, ![n, 32]⟩, E⟩] h (ix2 r j)
      = if h1 : j.val < 128 then A (ix2 r ⟨j.val, h1⟩)
        else if h2 : j.val < 256 then B (ix2 r ⟨j.val - 128, by omega⟩)
        else E (ix2 r ⟨j.val - 256, by have := j.isLt; omega⟩) := by
  split_ifs with h1 h2
  · exact concatenate_apply_piece 1 [⟨⟨2, ![n, 128]⟩, A⟩, ⟨⟨2, ![n, 128]⟩, B⟩, ⟨⟨2, ![n, 32]⟩, E⟩] h (ix2 r j) 0
      (by show 0 < 3; omega) _ A rfl rfl 0 rfl (ix2 r ⟨j.val, h1⟩)
      (fun b hb => by
        match b with
        | ⟨0, _⟩ => rfl
        | ⟨1, _⟩ => exact absurd rfl hb) (by show 0 + j.val = j.val; omega)
  · exact concatenate_apply_piece 1 [⟨⟨2, ![n, 128]⟩, A⟩, ⟨⟨2, ![n, 128]⟩, B⟩, ⟨⟨2, ![n, 32]⟩, E⟩] h (ix2 r j) 1
      (by show 1 < 3; omega) _ B rfl rfl 128 rfl (ix2 r ⟨j.val - 128, by omega⟩)
      (fun b hb => by
        match b with
        | ⟨0, _⟩ => rfl
        | ⟨1, _⟩ => exact absurd rfl hb) (by show 128 + (j.val - 128) = j.val; omega)
  · exact concatenate_apply_piece 1 [⟨⟨2, ![n, 128]⟩, A⟩, ⟨⟨2, ![n, 128]⟩, B⟩, ⟨⟨2, ![n, 32]⟩, E⟩] h (ix2 r j) 2
      (by show 2 < 3; omega) _ E rfl rfl 256 rfl (ix2 r ⟨j.val - 256, by have := j.isLt; omega⟩)
      (fun b hb => by
        match b with
        | ⟨0, _⟩ => rfl
        | ⟨1, _⟩ => exact absurd rfl hb) (by show 256 + (j.val - 256) = j.val; omega)

/-- Row `p` of block `t` is row `4000 t + p` of the array. -/
abbrev row (t : Fin cfg0.N) (p : Fin 4000) : Fin 800000 :=
  ⟨4000 * t.val + p.val, by have := t.isLt; have hN : cfg0.N = 200 := N_0; have := p.isLt; omega⟩

/-! ## Layer by layer: the kernel's block at a point is the reference's stage at the block's row -/

section Layers

variable (x0 : (⟨S50000x128, .f32⟩ : BufTy).Contents (Elt Ideal)) (x1 : (⟨S2x800000, .i32⟩ : BufTy).Contents (Elt Ideal))
  (x2 : (⟨S800000x32, .f32⟩ : BufTy).Contents (Elt Ideal)) (x3 : (⟨S288x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal))

/-- The kernel's joined block at `(p, j)` is the reference's joined array at `(4000 t + p, j)`, when the three loaded
    blocks are rows `4000 t …` of the two gathered arrays and of the edge attributes. The gathers stay closed. -/
theorem cat_apply (t : Fin cfg0.N) (xr xc : Vec Ideal S4000x128 .f32) (ea : Vec Ideal S4000x32 .f32)
    (hxr : ∀ (p : Fin 4000) (q : Fin 128), xr (ix2 p q) = Cert.ReferenceIdeal.Read.val_main_v10 (F := Ideal) x0 x1 (ix2 (row t p) q))
    (hxc : ∀ (p : Fin 4000) (q : Fin 128), xc (ix2 p q) = Cert.ReferenceIdeal.Read.val_main_v17 (F := Ideal) x0 x1 (ix2 (row t p) q))
    (hea : ∀ (p : Fin 4000) (q : Fin 32), ea (ix2 p q) = x2 (ix2 (row t p) q))
    (p : Fin 4000) (j : Fin 288) :
    concatenate S4000x288 1 [⟨S4000x128, xr⟩, ⟨S4000x128, xc⟩, ⟨S4000x32, ea⟩]
        concatenates_S4000x128_S4000x128_S4000x32_S4000x288_d1 (ix2 p j)
      = Cert.ReferenceIdeal.Read.val_main_v18 (F := Ideal) x0 x1 x2 (ix2 (row t p) j) := by
  unfold Cert.ReferenceIdeal.Read.val_main_v18
  refine (cat3_apply (n := 4000) xr xc ea _ p j).trans ?_
  refine Eq.trans ?_ (cat3_apply (n := 800000) _ _ _ _ (row t p) j).symm
  split_ifs with h1 h2
  · exact hxr _ _
  · exact hxc _ _
  · exact hea _ _

/-- Layer 1: the kernel's first hidden block at `(p, k)` is the reference's first hidden array at `(4000 t + p, k)`:
    the same 288 products summed in the same order, the same bias added, the same clamp. -/
theorem layer1_apply (t : Fin cfg0.N) (xr xc : Vec Ideal S4000x128 .f32) (ea : Vec Ideal S4000x32 .f32)
    (W1 : Vec Ideal S288x256 .f32) (b1 : Vec Ideal S1x256 .f32)
    (hxr : ∀ (p : Fin 4000) (q : Fin 128), xr (ix2 p q) = Cert.ReferenceIdeal.Read.val_main_v10 (F := Ideal) x0 x1 (ix2 (row t p) q))
    (hxc : ∀ (p : Fin 4000) (q : Fin 128), xc (ix2 p q) = Cert.ReferenceIdeal.Read.val_main_v17 (F := Ideal) x0 x1 (ix2 (row t p) q))
    (hea : ∀ (p : Fin 4000) (q : Fin 32), ea (ix2 p q) = x2 (ix2 (row t p) q))
    (hW1 : ∀ (j : Fin 288) (k : Fin 256), W1 (ix2 j k) = x3 (ix2 j k))
    (hb1 : ∀ k : Fin 256, b1 (ix2 (0 : Fin 1) k) = x4 (ix1 k))
    (p : Fin 4000) (k : Fin 256) :
    kL1 xr xc ea W1 b1 (ix2 p k)
      = Cert.ReferenceIdeal.Read.val_main_v23 (F := Ideal) x0 x1 x2 x3 x4 (ix2 (row t p) k) := by
  rw [Cert.ReferenceIdeal.Read.val_main_v23_apply, Cert.ReferenceIdeal.Read.val_main_v22_apply,
    Cert.ReferenceIdeal.Read.val_main_v19_apply, Cert.ReferenceIdeal.Read.val_main_v21_apply,
    Cert.ReferenceIdeal.Read.val_main_v20_apply, Cert.ReferenceIdeal.Read.val_main_call0_v0_apply,
    Cert.ReferenceIdeal.Read.val_main_call0_cst_apply]
  unfold kL1
  rw [maximumf_apply, addf_apply, mm1_apply, shapeCast_self, shapeCast_self, shapeCast_self,
    broadcastTo_1b_ab_apply, hb1]
  refine congrArg₂ max (congrArg₂ (· + ·) (Finset.sum_congr rfl fun j _ => ?_) ?_) rfl
  · rw [truncf_apply, truncf_apply, cat_apply x0 x1 x2 t xr xc ea hxr hxc hea, hW1]
    refine congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
  · refine congrArg x4 ?_
    funext a
    match a with
    | ⟨0, _⟩ => rfl

/-- Layer 2: the kernel's second hidden block at `(p, k)` is the reference's second hidden array at `(4000 t + p, k)`,
    given that of layer 1 (used inside the sum). -/
theorem layer2_apply (t : Fin cfg0.N) (h1 : FVec Ideal S4000x256 .f32) (W2 : Vec Ideal S256x256 .f32)
    (b2 : Vec Ideal S1x256 .f32)
    (hh1 : ∀ (p : Fin 4000) (k : Fin 256),
      h1 (ix2 p k) = Cert.ReferenceIdeal.Read.val_main_v23 (F := Ideal) x0 x1 x2 x3 x4 (ix2 (row t p) k))
    (hW2 : ∀ (j : Fin 256) (k : Fin 256), W2 (ix2 j k) = x5 (ix2 j k))
    (hb2 : ∀ k : Fin 256, b2 (ix2 (0 : Fin 1) k) = x6 (ix1 k))
    (p : Fin 4000) (k : Fin 256) :
    kL2 h1 W2 b2 (ix2 p k)
      = Cert.ReferenceIdeal.Read.val_main_v28 (F := Ideal) x0 x1 x2 x3 x4 x5 x6 (ix2 (row t p) k) := by
  rw [Cert.ReferenceIdeal.Read.val_main_v28_apply, Cert.ReferenceIdeal.Read.val_main_v27_apply,
    Cert.ReferenceIdeal.Read.val_main_v24_apply, Cert.ReferenceIdeal.Read.val_main_v26_apply,
    Cert.ReferenceIdeal.Read.val_main_v25_apply, Cert.ReferenceIdeal.Read.val_main_call1_v0_apply,
    Cert.ReferenceIdeal.Read.val_main_call1_cst_apply]
  unfold kL2
  rw [maximumf_apply, addf_apply, mm2_apply, shapeCast_self, broadcastTo_1b_ab_apply, hb2]
  refine congrArg₂ max (congrArg₂ (· + ·) (Finset.sum_congr rfl fun j _ => ?_) ?_) rfl
  · rw [truncf_apply, truncf_apply, hh1, hW2]
    refine congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
  · refine congrArg x6 ?_
    funext a
    match a with
    | ⟨0, _⟩ => rfl

/-- Layer 3: the kernel's output block at `(p, k)` is the reference's edge-network array at `(4000 t + p, k)`, given
    that of layer 2 (used inside the sum). -/
theorem layer3_apply (t : Fin cfg0.N) (h2 : FVec Ideal S4000x256 .f32) (W3 : Vec Ideal S256x128 .f32)
    (b3 : Vec Ideal S1x128 .f32)
    (hh2 : ∀ (p : Fin 4000) (k : Fin 256),
      h2 (ix2 p k) = Cert.ReferenceIdeal.Read.val_main_v28 (F := Ideal) x0 x1 x2 x3 x4 x5 x6 (ix2 (row t p) k))
    (hW3 : ∀ (j : Fin 256) (k : Fin 128), W3 (ix2 j k) = x7 (ix2 j k))
    (hb3 : ∀ k : Fin 128, b3 (ix2 (0 : Fin 1) k) = x8 (ix1 k))
    (p : Fin 4000) (k : Fin 128) :
    kL3 h2 W3 b3 (ix2 p k)
      = Cert.ReferenceIdeal.Read.val_main_v32 (F := Ideal) x0 x1 x2 x3 x4 x5 x6 x7 x8 (ix2 (row t p) k) := by
  rw [Cert.ReferenceIdeal.Read.val_main_v32_apply, Cert.ReferenceIdeal.Read.val_main_v29_apply,
    Cert.ReferenceIdeal.Read.val_main_v31_apply, Cert.ReferenceIdeal.Read.val_main_v30_apply]
  unfold kL3
  rw [addf_apply, mm3_apply, shapeCast_self, broadcastTo_1b_ab_apply, hb3]
  refine congrArg₂ (· + ·) (Finset.sum_congr rfl fun j _ => ?_) ?_
  · rw [truncf_apply, truncf_apply, hh2, hW3]
    refine congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
  · refine congrArg x8 ?_
    funext a
    match a with
    | ⟨0, _⟩ => rfl

end Layers

variable (V : (c : Dev nD) → (b : Ref sig .tc) → Buf (Elt Ideal) ((c : Thread nD τ).loc b))

/-! ## The windows' blocks read at a point -/

/-- The index maps of the region's windows, decided over its 200 grid points: the row-blocked windows (the two gathered
    arrays, the edge attributes, the output) sit at block `(t, 0)`, the weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem iblk0_0_apply (c : Dev nD) (t : Fin cfg0.N) (p : Fin 4000) (q : Fin 128) :
    (iblk0 V c 0 t : Vec Ideal S4000x128 .f32) (ix2 p q) = (V c main_v4 : S800000x128.Idx → EReal) (ix2 (row t p) q) := by
  obtain ⟨e0, e1, -⟩ := idx_facts t
  unfold iblk0
  rw [View.read_apply]
  show (V c main_v4 : S800000x128.Idx → EReal) _ = _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * q.val = q.val; rw [e1]; omega

theorem iblk0_1_apply (c : Dev nD) (t : Fin cfg0.N) (p : Fin 4000) (q : Fin 128) :
    (iblk0 V c 1 t : Vec Ideal S4000x128 .f32) (ix2 p q) = (V c main_v5 : S800000x128.Idx → EReal) (ix2 (row t p) q) := by
  obtain ⟨-, -, e0, e1, -⟩ := idx_facts t
  unfold iblk0
  rw [View.read_apply]
  show (V c main_v5 : S800000x128.Idx → EReal) _ = _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 128 + 1 * q.val = q.val; rw [e1]; omega

theorem iblk0_2_apply (c : Dev nD) (t : Fin cfg0.N) (p : Fin 4000) (q : Fin 32) :
    (iblk0 V c 2 t : Vec Ideal S4000x32 .f32) (ix2 p q) = (V c main_arg2 : S800000x32.Idx → EReal) (ix2 (row t p) q) := by
  obtain ⟨-, -, -, -, e0, e1, -⟩ := idx_facts t
  unfold iblk0
  rw [View.read_apply]
  show (V c main_arg2 : S800000x32.Idx → EReal) _ = _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 32 + 1 * q.val = q.val; rw [e1]; omega

theorem iblk0_3_apply (c : Dev nD) (t : Fin cfg0.N) (p : Fin 288) (q : Fin 256) :
    (iblk0 V c 3 t : Vec Ideal S288x256 .f32) (ix2 p q) = (V c main_arg3 : S288x256.Idx → EReal) (ix2 p q) := by
  obtain ⟨-, -, -, -, -, -, e0, e1, -⟩ := idx_facts t
  unfold iblk0
  rw [View.read_apply]
  show (V c main_arg3 : S288x256.Idx → EReal) _ = _
  congr 1
  funext a
  apply Fin.ext
  match a with
  | ⟨0, _⟩ => show win0_3.index t (0 : Fin 2) * 288 + 1 * p.val = p.val; rw [e0]; omega
  | ⟨1, _⟩ => show win0_3.index t (1 : Fin 2) * 256 + 1 * q.val = q.val; rw [e1]; omega

theorem iblk0_4_apply (c : Dev nD) (t : Fin cfg0.N) (p : Fin 1) (q : Fin 256) :
    (iblk0 V c 4 t : Vec Ideal S1x256 .f32) (ix2 p q) = (V c main_v6 : S1x256.Idx → EReal) (ix2 p q) := by
  obtain ⟨-, -, -, -, -, -, -, -, e0, e1, -⟩ := idx_facts t
  unfold iblk0
  rw [View.read_apply]
  show (V c main_v6 : S1x256.Idx → EReal) _ = _
  congr 1
  funext a
  apply Fin.ext
  match a with
  | ⟨0, _⟩ => show win0_4.index t (0 : Fin 2) * 1 + 1 * p.val = p.val; rw [e0]; omega
  | ⟨1, _⟩ => show win0_4.index t (1 : Fin 2) * 256 + 1 * q.val = q.val; rw [e1]; omega

theorem iblk0_5_apply (c : Dev nD) (t : Fin cfg0.N) (p : Fin 256) (q : Fin 256) :
    (iblk0 V c 5 t : Vec Ideal S256x256 .f32) (ix2 p q) = (V c main_arg5 : S256x256.Idx → EReal) (ix2 p q) := by
  obtain ⟨-, -, -, -, -, -, -, -, -, -, e0, e1, -⟩ := idx_facts t
  unfold iblk0
  rw [View.read_apply]
  show (V c main_arg5 : S256x256.Idx → EReal) _ = _
  congr 1
  funext a
  apply Fin.ext
  match a with
  | ⟨0, _⟩ => show win0_5.index t (0 : Fin 2) * 256 + 1 * p.val = p.val; rw [e0]; omega
  | ⟨1, _⟩ => show win0_5.index t (1 : Fin 2) * 256 + 1 * q.val = q.val; rw [e1]; omega

theorem iblk0_6_apply (c : Dev nD) (t : Fin cfg0.N) (p : Fin 1) (q : Fin 256) :
    (iblk0 V c 6 t : Vec Ideal S1x256 .f32) (ix2 p q) = (V c main_v7 : S1x256.Idx → EReal) (ix2 p q) := by
  obtain ⟨-, -, -, -, -, -, -, -, -, -, -, -, e0, e1, -⟩ := idx_facts t
  unfold iblk0
  rw [View.read_apply]
  show (V c main_v7 : S1x256.Idx → EReal) _ = _
  congr 1
  funext a
  apply Fin.ext
  match a with
  | ⟨0, _⟩ => show win0_6.index t (0 : Fin 2) * 1 + 1 * p.val = p.val; rw [e0]; omega
  | ⟨1, _⟩ => show win0_6.index t (1 : Fin 2) * 256 + 1 * q.val = q.val; rw [e1]; omega

theorem iblk0_7_apply (c : Dev nD) (t : Fin cfg0.N) (p : Fin 256) (q : Fin 128) :
    (iblk0 V c 7 t : Vec Ideal S256x128 .f32) (ix2 p q) = (V c main_arg7 : S256x128.Idx → EReal) (ix2 p q) := by
  obtain ⟨-, -, -, -, -, -, -, -, -, -, -, -, -, -, e0, e1, -⟩ := idx_facts t
  unfold iblk0
  rw [View.read_apply]
  show (V c main_arg7 : S256x128.Idx → EReal) _ = _
  congr 1
  funext a
  apply Fin.ext
  match a with
  | ⟨0, _⟩ => show win0_7.index t (0 : Fin 2) * 256 + 1 * p.val = p.val; rw [e0]; omega
  | ⟨1, _⟩ => show win0_7.index t (1 : Fin 2) * 128 + 1 * q.val = q.val; rw [e1]; omega

theorem iblk0_8_apply (c : Dev nD) (t : Fin cfg0.N) (p : Fin 1) (q : Fin 128) :
    (iblk0 V c 8 t : Vec Ideal S1x128 .f32) (ix2 p q) = (V c main_v8 : S1x128.Idx → EReal) (ix2 p q) := by
  obtain ⟨-, -, -, -, -, -, -, -, -, -, -, -, -, -, -, -, e0, e1, -⟩ := idx_facts t
  unfold iblk0
  rw [View.read_apply]
  show (V c main_v8 : S1x128.Idx → EReal) _ = _
  congr 1
  funext a
  apply Fin.ext
  match a with
  | ⟨0, _⟩ => show win0_8.index t (0 : Fin 2) * 1 + 1 * p.val = p.val; rw [e0]; omega
  | ⟨1, _⟩ => show win0_8.index t (1 : Fin 2) * 128 + 1 * q.val = q.val; rw [e1]; omega

/-! ## What a point writes back, and the cover -/

/-- What grid point `t` writes back is block `t` of the reference's edge-network array. -/
theorem flushed_eq (c : Dev nD)
    (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (hxr : V c main_v4 = Cert.ReferenceIdeal.Read.val_main_v10 (F := Ideal) x0 x1)
    (hxc : V c main_v5 = Cert.ReferenceIdeal.Read.val_main_v17 (F := Ideal) x0 x1)
    (hea : V c main_arg2 = x2) (hW1 : V c main_arg3 = x3)
    (hb1 : ∀ k : Fin 256, (V c main_v6 : S1x256.Idx → EReal) (ix2 (0 : Fin 1) k) = x4 (ix1 k))
    (hW2 : V c main_arg5 = x5)
    (hb2 : ∀ k : Fin 256, (V c main_v7 : S1x256.Idx → EReal) (ix2 (0 : Fin 1) k) = x6 (ix1 k))
    (hW3 : V c main_arg7 = x7)
    (hb3 : ∀ k : Fin 128, (V c main_v8 : S1x128.Idx → EReal) (ix2 (0 : Fin 1) k) = x8 (ix1 k))
    (t : Fin cfg0.N) :
    (dat0 (F := Ideal) V c).flushed 9 t
      = ((cfg0.win 9).blk t).view.read (Elt Ideal)
          (Cert.ReferenceIdeal.Read.val_main_v32 (F := Ideal) x0 x1 x2 x3 x4 x5 x6 x7 x8) := by
  show (cfg0.win 9).cut (grid0.coords t) ((dat0 V c).after 9 t) = _
  rw [after0_9]
  unfold out0_9
  rw [View.canon_unit_zero hz]
  simp only [View.ld_unit_zero (S := S4000x128) hz, View.ld_unit_zero (S := S4000x32) hz,
    View.ld_unit_zero (S := S288x256) hz, View.ld_unit_zero (S := S1x256) hz, View.ld_unit_zero (S := S256x256) hz,
    View.ld_unit_zero (S := S256x128) hz, View.ld_unit_zero (S := S1x128) hz]
  rw [pay_eq]
  funext j
  have hp : (j 0).val < 4000 := (j 0).isLt
  have hq : (j 1).val < 128 := (j 1).isLt
  obtain ⟨-, -, -, -, -, -, -, -, -, -, -, -, -, -, -, -, -, -, e0, e1⟩ := idx_facts t
  have hL : (cfg0.win 9).xinj (grid0.coords t) j = (ix2 (⟨(j 0).val, hp⟩ : Fin 4000) (⟨(j 1).val, hq⟩ : Fin 128) : S4000x128.Idx) := by
    funext a
    match a with
    | ⟨0, _⟩ => rfl
    | ⟨1, _⟩ => rfl
  have hR : ((cfg0.win 9).blk t).view.emb j
      = (ix2 (row t ⟨(j 0).val, hp⟩) (⟨(j 1).val, hq⟩ : Fin 128) : S800000x128.Idx) := by
    funext a
    apply Fin.ext
    match a with
    | ⟨0, _⟩ => show win0_9.index t (0 : Fin 2) * 4000 + 1 * (j 0).val = 4000 * t.val + (j 0).val; rw [e0]; omega
    | ⟨1, _⟩ => show win0_9.index t (1 : Fin 2) * 128 + 1 * (j 1).val = (j 1).val; rw [e1]; omega
  rw [View.read_apply]
  show kL3 _ _ _ ((cfg0.win 9).xinj (grid0.coords t) j)
    = Cert.ReferenceIdeal.Read.val_main_v32 (F := Ideal) x0 x1 x2 x3 x4 x5 x6 x7 x8 (((cfg0.win 9).blk t).view.emb j)
  rw [hL, hR]
  refine layer3_apply x0 x1 x2 x3 x4 x5 x6 x7 x8 t _ _ _ (fun p k => ?_) (fun j k => ?_) (fun k => ?_) _ _
  · refine layer2_apply x0 x1 x2 x3 x4 x5 x6 t _ _ _ (fun p k => ?_) (fun j k => ?_) (fun k => ?_) p k
    · refine layer1_apply x0 x1 x2 x3 x4 t _ _ _ _ _ (fun p q => ?_) (fun p q => ?_) (fun p q => ?_) (fun j k => ?_)
        (fun k => ?_) p k
      · exact (iblk0_0_apply V c t p q).trans (congrFun hxr _)
      · exact (iblk0_1_apply V c t p q).trans (congrFun hxc _)
      · exact (iblk0_2_apply V c t p q).trans (congrFun hea _)
      · exact (iblk0_3_apply V c t j k).trans (congrFun hW1 _)
      · exact (iblk0_4_apply V c t 0 k).trans (hb1 k)
    · exact (iblk0_5_apply V c t j k).trans (congrFun hW2 _)
    · exact (iblk0_6_apply V c t 0 k).trans (hb2 k)
  · exact (iblk0_7_apply V c t j k).trans (congrFun hW3 _)
  · exact (iblk0_8_apply V c t 0 k).trans (hb3 k)

/-- Every row of the output array is in some grid point's block: row `r` in block `r / 4000`. -/
theorem cover9 (i : S800000x128.Idx) :
    ∃ t : Fin cfg0.N, (cfg0.win 9).flush t = true ∧ i ∈ ((cfg0.win 9).blk t).view.set := by
  have hi0 : (i 0).val < 800000 := (i 0).isLt
  have hi1 : (i 1).val < 128 := (i 1).isLt
  have hN : cfg0.N = 200 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, -, -, -, -, -, -, e0, e1⟩ := idx_facts t
  refine ⟨t, flush0_9 t, ?_⟩
  show i ∈ ((View.whole main_v9).slice (win0_9.rect t)).set
  rw [View.set_slice_whole, Rect.mem_set_unit]
  intro a
  match a with
  | ⟨0, _⟩ =>
    show win0_9.index t (0 : Fin 2) * 4000 ≤ (i 0).val ∧ (i 0).val < win0_9.index t (0 : Fin 2) * 4000 + 4000
    rw [e0, ht]; omega
  | ⟨1, _⟩ =>
    show win0_9.index t (1 : Fin 2) * 128 ≤ (i 1).val ∧ (i 1).val < win0_9.index t (1 : Fin 2) * 128 + 128
    rw [e1]; omega

/-- The edge region's output array after its run is the reference's edge network of the same inputs. -/
theorem final0 (c : Dev nD)
    (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (hxr : V c main_v4 = Cert.ReferenceIdeal.Read.val_main_v10 (F := Ideal) x0 x1)
    (hxc : V c main_v5 = Cert.ReferenceIdeal.Read.val_main_v17 (F := Ideal) x0 x1)
    (hea : V c main_arg2 = x2) (hW1 : V c main_arg3 = x3)
    (hb1 : ∀ k : Fin 256, (V c main_v6 : S1x256.Idx → EReal) (ix2 (0 : Fin 1) k) = x4 (ix1 k))
    (hW2 : V c main_arg5 = x5)
    (hb2 : ∀ k : Fin 256, (V c main_v7 : S1x256.Idx → EReal) (ix2 (0 : Fin 1) k) = x6 (ix1 k))
    (hW3 : V c main_arg7 = x7)
    (hb3 : ∀ k : Fin 128, (V c main_v8 : S1x128.Idx → EReal) (ix2 (0 : Fin 1) k) = x8 (ix1 k)) :
    (dat0 (F := Ideal) V c).arrAt 9 cfg0.N
      = Cert.ReferenceIdeal.Read.val_main_v32 (F := Ideal) x0 x1 x2 x3 x4 x5 x6 x7 x8 := by
  exact (dat0 (F := Ideal) V c).arrAt_eq_of_cover 9 _
    (fun t _ => flushed_eq V c x0 x1 x2 x3 x4 x5 x6 x7 x8 hxr hxc hea hW1 hb1 hW2 hb2 hW3 hb3 t) cover9

end Cert.KernelIdeal.EdgeRegion

end
-- ==== Proof.NodeRegion.lean ====
import proofs.«416344_j59064390255196_1_alg».proof.Proof.Gen.KernelIdeal.Frame
import proofs.«416344_j59064390255196_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

section Layout
variable {α : Type}

/-- A vector `[a]` cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The hidden layer of a block of rows. -/
def hid (X A : Vec Ideal S5000x128 .f32) (W1 : Vec Ideal S256x256 .f32) (b1 : Vec Ideal S1x256 .f32) : FVec Ideal S5000x256 .f32 :=
  maximumf (addf (matmul dot_S5000x256_S256x256_S5000x256_1_0_0_1_n_n none
      (truncf .bf16 (concatenate S5000x256 1 [⟨S5000x128, X⟩, ⟨S5000x128, shapeCast S5000x128 A shapeCasts_S5000x128_S5000x128⟩] concatenates_S5000x128_S5000x128_S5000x256_d1) bitsLt_bf16_f32)
      (truncf .bf16 W1 bitsLt_bf16_f32) (constant S5000x256 .f32 0x00000000#32))
    (broadcastTo S5000x256 (shapeCast S1x256 b1 shapeCasts_S1x256_S1x256) broadcasts_S1x256_S5000x256))
    (broadcast S5000x256 (Scalar.ofBits .f32 0x00000000#32))

theorem pay2_eq (X A : Vec Ideal S5000x128 .f32) (W1 : Vec Ideal S256x256 .f32) (b1 : Vec Ideal S1x256 .f32) (W2 : Vec Ideal S256x128 .f32) (b2 : Vec Ideal S1x128 .f32) :
    k1_pay2 X A W1 b1 W2 b2 = addf X (addf (matmul dot_S5000x256_S256x128_S5000x128_1_0_0_1_n_n none (truncf .bf16 (hid X A W1 b1) bitsLt_bf16_f32) (truncf .bf16 W2 bitsLt_bf16_f32) (constant S5000x128 .f32 0x00000000#32))
      (broadcastTo S5000x128 (shapeCast S1x128 b2 shapeCasts_S1x128_S1x128) broadcasts_S1x128_S5000x128)) := rfl

/-! ## The two matrix products of a block, at an index -/

theorem lhsA_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsA_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhsA_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhsA_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The first product into a zero accumulator, at `(p, k)`: the row `p` of the left factor against the column `k` of the right. -/
theorem mmA_apply (L : FVec Ideal S5000x256 .bf16) (R : FVec Ideal S256x256 .bf16) (p : Fin 5000) (k : Fin 256) :
    matmul dot_S5000x256_S256x256_S5000x256_1_0_0_1_n_n none L R (constant S5000x256 .f32 0x00000000#32) (ix2 p k)
      = ∑ j : Fin 256, L (ix2 p j) * R (ix2 j k) := by
  show FloatOps.matmul dot_S5000x256_S256x256_S5000x256_1_0_0_1_n_n none L R (constant S5000x256 .f32 0x00000000#32) (ix2 p k) = _
  rw [Ideal.matmul_constant_zero_apply, ← Equiv.sum_comp (contrEquiv1 dot_S5000x256_S256x256_S5000x256_1_0_0_1_n_n 256 rfl rfl).symm]
  refine Finset.sum_congr rfl fun j _ => ?_
  have hk := contrEquiv1_symm_val dot_S5000x256_S256x256_S5000x256_1_0_0_1_n_n 256 rfl rfl j
  have el : dot_S5000x256_S256x256_S5000x256_1_0_0_1_n_n.lhsIdx (ix2 p k) ((contrEquiv1 dot_S5000x256_S256x256_S5000x256_1_0_0_1_n_n 256 rfl rfl).symm j) = ix2 p j := funext fun a => Fin.ext (by
    match a with
    | ⟨0, _⟩ => exact lhsA_0 _ _
    | ⟨1, _⟩ => exact (lhsA_1 _ _).trans hk)
  have er : dot_S5000x256_S256x256_S5000x256_1_0_0_1_n_n.rhsIdx (ix2 p k) ((contrEquiv1 dot_S5000x256_S256x256_S5000x256_1_0_0_1_n_n 256 rfl rfl).symm j) = ix2 j k := funext fun a => Fin.ext (by
    match a with
    | ⟨0, _⟩ => exact (rhsA_0 _ _).trans hk
    | ⟨1, _⟩ => exact rhsA_1 _ _)
  rw [el, er]

section Concat
variable {α : Type}

/-- Two row blocks joined side by side: a column of the first reads the first. -/
theorem concat2_left {a b b' n : ℕ} (x₁ : (⟨2, ![a, b]⟩ : Shape).Idx → α) (x₂ : (⟨2, ![a, b']⟩ : Shape).Idx → α)
    (h : Shape.Concatenates [(⟨2, ![a, b]⟩ : Shape), ⟨2, ![a, b']⟩] ⟨2, ![a, n]⟩ 1) (p : Fin a) (j : Fin n) (j' : Fin b) (hj : j'.val = j.val) :
    concatenate ⟨2, ![a, n]⟩ 1 [⟨⟨2, ![a, b]⟩, x₁⟩, ⟨⟨2, ![a, b']⟩, x₂⟩] h (ix2 p j) = x₁ (ix2 p j') :=
  concatenate_pair_apply_left 1 x₁ x₂ h (ix2 p j) rfl (ix2 p j') (fun c => match c with
    | ⟨0, _⟩ => rfl
    | ⟨1, _⟩ => hj)

/-- … and a column past the first block's width reads the second, that width less. -/
theorem concat2_right {a b b' n : ℕ} (x₁ : (⟨2, ![a, b]⟩ : Shape).Idx → α) (x₂ : (⟨2, ![a, b']⟩ : Shape).Idx → α)
    (h : Shape.Concatenates [(⟨2, ![a, b]⟩ : Shape), ⟨2, ![a, b']⟩] ⟨2, ![a, n]⟩ 1) (p : Fin a) (j : Fin n) (j' : Fin b') (hj : j'.val + b = j.val) :
    concatenate ⟨2, ![a, n]⟩ 1 [⟨⟨2, ![a, b]⟩, x₁⟩, ⟨⟨2, ![a, b']⟩, x₂⟩] h (ix2 p j) = x₂ (ix2 p j') :=
  concatenate_pair_apply_right 1 x₁ x₂ h (ix2 p j) rfl rfl (ix2 p j') (fun c hc => match c, hc with
    | ⟨0, _⟩, _ => rfl
    | ⟨1, _⟩, hc => absurd rfl hc) hj

end Concat

theorem lhsB_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsB_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsB_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsB_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product into a zero accumulator, at `(p, q)`. -/
theorem mmB_apply (L : FVec Ideal S5000x256 .bf16) (R : FVec Ideal S256x128 .bf16) (p : Fin 5000) (q : Fin 128) :
    matmul dot_S5000x256_S256x128_S5000x128_1_0_0_1_n_n none L R (constant S5000x128 .f32 0x00000000#32) (ix2 p q)
      = ∑ k : Fin 256, L (ix2 p k) * R (ix2 k q) := by
  show FloatOps.matmul dot_S5000x256_S256x128_S5000x128_1_0_0_1_n_n none L R (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- A row sum of a block from the zero word, at row `p`. -/
theorem rowSum_apply (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-! ## The remaining payloads, one operation each over the earlier ones -/

theorem pay3_eq (X A : Vec Ideal S5000x128 .f32) (W1 : Vec Ideal S256x256 .f32) (b1 : Vec Ideal S1x256 .f32) (W2 : Vec Ideal S256x128 .f32) (b2 : Vec Ideal S1x128 .f32) :
    k1_pay3 X A W1 b1 W2 b2 = divf (shapeCast S5000x1 (multiReduction .add [1] S5000 (k1_pay2 X A W1 b1 W2 b2) 0x00000000#32 reduces_S5000x128_S5000 (.inl rfl) rfl) shapeCasts_S5000_S5000x1)
      (broadcast S5000x1 (Scalar.ofBits .f32 0x43000000#32)) := rfl

theorem pay4_eq (X A : Vec Ideal S5000x128 .f32) (W1 : Vec Ideal S256x256 .f32) (b1 : Vec Ideal S1x256 .f32) (W2 : Vec Ideal S256x128 .f32) (b2 : Vec Ideal S1x128 .f32) :
    k1_pay4 X A W1 b1 W2 b2 = subf (k1_pay2 X A W1 b1 W2 b2) (broadcastTo S5000x128 (k1_pay3 X A W1 b1 W2 b2) broadcasts_S5000x1_S5000x128) := rfl

theorem pay5_eq (X A : Vec Ideal S5000x128 .f32) (W1 : Vec Ideal S256x256 .f32) (b1 : Vec Ideal S1x256 .f32) (W2 : Vec Ideal S256x128 .f32) (b2 : Vec Ideal S1x128 .f32) :
    k1_pay5 X A W1 b1 W2 b2 = rsqrt (addf (divf (shapeCast S5000x1 (multiReduction .add [1] S5000 (mulf (k1_pay4 X A W1 b1 W2 b2) (k1_pay4 X A W1 b1 W2 b2)) 0x00000000#32 reduces_S5000x128_S5000 (.inl rfl) rfl) shapeCasts_S5000_S5000x1)
      (broadcast S5000x1 (Scalar.ofBits .f32 0x43000000#32))) (broadcast S5000x1 (Scalar.ofBits .f32 0x3727C5AC#32))) := rfl

theorem pay1_eq (C : FVec Ideal S5000x128 .f32) (r : FVec Ideal S5000x1 .f32) (ga be : Vec Ideal S1x128 .f32) :
    k1_pay1 C r ga be = addf (mulf (mulf C (broadcastTo S5000x128 r broadcasts_S5000x1_S5000x128))
        (broadcastTo S5000x128 (shapeCast S1x128 ga shapeCasts_S1x128_S1x128) broadcasts_S1x128_S5000x128))
      (broadcastTo S5000x128 (shapeCast S1x128 be shapeCasts_S1x128_S1x128) broadcasts_S1x128_S5000x128) := rfl

theorem rsqrt_apply {s : Shape} {φ : FTy} (a : FVec Ideal s φ) (i : s.Idx) : rsqrt a i = Ideal.rsqrt (a i) := rfl

/-! ## A block of rows against the reference's stages -/

/-- Row `p` of block `t` in the whole array. -/
abbrev row (t : ℕ) (ht : t < 10) (p : Fin 5000) : Fin 50000 := ⟨5000 * t + p.val, by have := p.isLt; omega⟩

section Block
variable (X A : Vec Ideal S5000x128 .f32) (W1 : Vec Ideal S256x256 .f32) (b1 : Vec Ideal S1x256 .f32)
  (W2 : Vec Ideal S256x128 .f32) (b2 ga be : Vec Ideal S1x128 .f32)
variable (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (x9 : (⟨S256x256, .f32⟩ : BufTy).Contents (Elt Ideal)) (x10 : (⟨S256, .f32⟩ : BufTy).Contents (Elt Ideal)) (x11 : (⟨S256x128, .f32⟩ : BufTy).Contents (Elt Ideal)) (x12 x13 x14 : (⟨S128, .f32⟩ : BufTy).Contents (Elt Ideal))
variable (t : ℕ) (ht : t < 10)

local notation "R35" => Cert.ReferenceIdeal.Read.val_main_v35 (F := Ideal) x0 x1 x2 x3 x4 x5 x6 x7 x8
local notation "R36" => Cert.ReferenceIdeal.Read.val_main_v36 (F := Ideal) x0 x1 x2 x3 x4 x5 x6 x7 x8
local notation "R41" => Cert.ReferenceIdeal.Read.val_main_v41 (F := Ideal) x0 x1 x2 x3 x4 x5 x6 x7 x8 x9 x10
local notation "R46" => Cert.ReferenceIdeal.Read.val_main_v46 (F := Ideal) x0 x1 x2 x3 x4 x5 x6 x7 x8 x9 x10 x11 x12

/-- The block's inputs are block `t` of the reference's: rows `5000 t …` of the node features and of the
    aggregated messages, and the whole weight, bias, scale and shift arrays. -/
structure Blk : Prop where
  hX : ∀ (p : Fin 5000) (q : Fin 128), X (ix2 p q) = x0 (ix2 (row t ht p) q)
  hA : ∀ (p : Fin 5000) (q : Fin 128), A (ix2 p q) = R35 (ix2 (row t ht p) q)
  hW1 : ∀ (j k : Fin 256), W1 (ix2 j k) = x9 (ix2 j k)
  hb1 : ∀ k : Fin 256, b1 (ix2 (0 : Fin 1) k) = x10 (ix1 k)
  hW2 : ∀ (k : Fin 256) (q : Fin 128), W2 (ix2 k q) = x11 (ix2 k q)
  hb2 : ∀ q : Fin 128, b2 (ix2 (0 : Fin 1) q) = x12 (ix1 q)
  hga : ∀ q : Fin 128, ga (ix2 (0 : Fin 1) q) = x13 (ix1 q)
  hbe : ∀ q : Fin 128, be (ix2 (0 : Fin 1) q) = x14 (ix1 q)

variable (H : Blk X A W1 b1 W2 b2 ga be x0 x1 x2 x3 x4 x5 x6 x7 x8 x9 x10 x11 x12 x13 x14 t ht)
include H

/-- The joined rows `[x, aggr]` of the block are the reference's joined rows. -/
theorem cat_eq (hc : Shape.Concatenates [S5000x128, S5000x128] S5000x256 1) (p : Fin 5000) (j : Fin 256) :
    concatenate S5000x256 1 [⟨S5000x128, X⟩, ⟨S5000x128, A⟩] hc (ix2 p j) = R36 (ix2 (row t ht p) j) := by
  unfold Cert.ReferenceIdeal.Read.val_main_v36
  by_cases hj : j.val < 128
  · refine (concat2_left X A hc p j ⟨j.val, hj⟩ rfl).trans ?_
    refine Eq.trans ?_ (concat2_left x0 R35 _ (row t ht p) j ⟨j.val, hj⟩ rfl).symm
    exact H.hX p _
  · have hj' : j.val - 128 < 128 := by have := j.isLt; omega
    refine (concat2_right X A hc p j ⟨j.val - 128, hj'⟩ (by show j.val - 128 + 128 = j.val; omega)).trans ?_
    refine Eq.trans ?_ (concat2_right x0 R35 _ (row t ht p) j ⟨j.val - 128, hj'⟩ (by show j.val - 128 + 128 = j.val; omega)).symm
    exact H.hA p _

omit H in
theorem lidx37_eq (r : Fin 50000) (k j : Fin 256) : Cert.ReferenceIdeal.Read.lidx_main_v37 (ix2 r k) j = ix2 r j :=
  funext fun a => by match a with | ⟨0, _⟩ => rfl | ⟨1, _⟩ => rfl
omit H in
theorem ridx37_eq (r : Fin 50000) (k j : Fin 256) : Cert.ReferenceIdeal.Read.ridx_main_v37 (ix2 r k) j = ix2 j k :=
  funext fun a => by match a with | ⟨0, _⟩ => rfl | ⟨1, _⟩ => rfl
omit H in
theorem idx38_39_eq (r : Fin 50000) (k : Fin 256) :
    Cert.ReferenceIdeal.Read.idx_main_v38 (Cert.ReferenceIdeal.Read.idx_main_v39 (ix2 r k)) = ix1 k :=
  funext fun a => by match a with | ⟨0, _⟩ => rfl

/-- The hidden layer of the block is the reference's hidden layer on the block's rows. -/
theorem hid_eq (p : Fin 5000) (k : Fin 256) : hid X A W1 b1 (ix2 p k) = R41 (ix2 (row t ht p) k) := by
  rw [Cert.ReferenceIdeal.Read.val_main_v41_apply, Cert.ReferenceIdeal.Read.val_main_v40_apply, Cert.ReferenceIdeal.Read.val_main_v37_apply,
    Cert.ReferenceIdeal.Read.val_main_v39_apply, Cert.ReferenceIdeal.Read.val_main_v38_apply, Cert.ReferenceIdeal.Read.val_main_call2_v0_apply,
    Cert.ReferenceIdeal.Read.val_main_call2_cst_apply, idx38_39_eq]
  unfold hid
  rw [maximumf_apply, addf_apply, mmA_apply, broadcastTo_1b_ab_apply, shapeCast_self, shapeCast_self, broadcast_apply, H.hb1]
  show max (_ + _) _ = max (_ + _) _
  refine congrArg (fun s => max (s + x10 (ix1 k)) _) (Finset.sum_congr rfl fun j _ => ?_)
  rw [truncf_apply, truncf_apply, cat_eq X A W1 b1 W2 b2 ga be x0 x1 x2 x3 x4 x5 x6 x7 x8 x9 x10 x11 x12 x13 x14 t ht H, H.hW1, lidx37_eq, ridx37_eq]

omit H in
theorem lidx42_eq (r : Fin 50000) (q : Fin 128) (k : Fin 256) : Cert.ReferenceIdeal.Read.lidx_main_v42 (ix2 r q) k = ix2 r k :=
  funext fun a => by match a with | ⟨0, _⟩ => rfl | ⟨1, _⟩ => rfl
omit H in
theorem ridx42_eq (r : Fin 50000) (q : Fin 128) (k : Fin 256) : Cert.ReferenceIdeal.Read.ridx_main_v42 (ix2 r q) k = ix2 k q :=
  funext fun a => by match a with | ⟨0, _⟩ => rfl | ⟨1, _⟩ => rfl
omit H in
theorem idx43_44_eq (r : Fin 50000) (q : Fin 128) :
    Cert.ReferenceIdeal.Read.idx_main_v43 (Cert.ReferenceIdeal.Read.idx_main_v44 (ix2 r q)) = ix1 q :=
  funext fun a => by match a with | ⟨0, _⟩ => rfl

/-- The residual output `y = x + (h · Wn2 + bn2)` of the block is the reference's on the block's rows. -/
theorem y_eq (p : Fin 5000) (q : Fin 128) : k1_pay2 X A W1 b1 W2 b2 (ix2 p q) = R46 (ix2 (row t ht p) q) := by
  rw [Cert.ReferenceIdeal.Read.val_main_v46_apply, Cert.ReferenceIdeal.Read.val_main_v45_apply, Cert.ReferenceIdeal.Read.val_main_v42_apply,
    Cert.ReferenceIdeal.Read.val_main_v44_apply, Cert.ReferenceIdeal.Read.val_main_v43_apply, idx43_44_eq]
  rw [pay2_eq, addf_apply, addf_apply, mmB_apply, broadcastTo_1b_ab_apply, shapeCast_self, H.hb2, H.hX]
  show _ + (_ + _) = _ + (_ + _)
  refine congrArg (fun s => x0 (ix2 (row t ht p) q) + (s + x12 (ix1 q))) (Finset.sum_congr rfl fun k _ => ?_)
  rw [truncf_apply, truncf_apply, hid_eq X A W1 b1 W2 b2 ga be x0 x1 x2 x3 x4 x5 x6 x7 x8 x9 x10 x11 x12 x13 x14 t ht H, H.hW2, lidx42_eq, ridx42_eq]

local notation "R50" => Cert.ReferenceIdeal.Read.val_main_v50 (F := Ideal) x0 x1 x2 x3 x4 x5 x6 x7 x8 x9 x10 x11 x12
local notation "R52" => Cert.ReferenceIdeal.Read.val_main_v52 (F := Ideal) x0 x1 x2 x3 x4 x5 x6 x7 x8 x9 x10 x11 x12
local notation "R59" => Cert.ReferenceIdeal.Read.val_main_v59 (F := Ideal) x0 x1 x2 x3 x4 x5 x6 x7 x8 x9 x10 x11 x12
local notation "R62" => Cert.ReferenceIdeal.Read.val_main_v62 (F := Ideal) x0 x1 x2 x3 x4 x5 x6 x7 x8 x9 x10 x11 x12
local notation "R70" => Cert.ReferenceIdeal.Read.val_main_v70 (F := Ideal) x0 x1 x2 x3 x4 x5 x6 x7 x8 x9 x10 x11 x12 x13 x14

omit H in
theorem idx47_48_eq (r : Fin 50000) (u : Fin 1) (k : Fin 128) :
    Cert.ReferenceIdeal.Read.idx_main_v47 (Cert.ReferenceIdeal.Read.idx_main_v48 (ix2 r u)) k = ix2 r k :=
  funext fun a => by match a with | ⟨0, _⟩ => rfl | ⟨1, _⟩ => rfl

/-- The row mean of `y`: the row sum from zero over 128. -/
theorem mean_eq (p : Fin 5000) (u : Fin 1) : k1_pay3 X A W1 b1 W2 b2 (ix2 p u) = R50 (ix2 (row t ht p) u) := by
  rw [Cert.ReferenceIdeal.Read.val_main_v50_apply, Cert.ReferenceIdeal.Read.val_main_v48_apply, Cert.ReferenceIdeal.Read.val_main_v47_apply,
    Cert.ReferenceIdeal.Read.val_main_v49_apply, Cert.ReferenceIdeal.Read.val_main_cst_4_apply, Cert.ReferenceIdeal.Read.val_main_cst_3_apply]
  rw [pay3_eq, divf_apply, shapeCast_a_a1_apply, rowSum_apply, broadcast_apply]
  rw [Ideal.hostDivf_def, Ideal.ofBits_def, Ideal.ofBits_def, Ideal.ofBits_zero_f32, zero_add]
  refine congrArg (fun s => Ideal.div s (Ideal.ofBits .f32 0x43000000#32)) (Finset.sum_congr rfl fun k _ => ?_)
  rw [y_eq X A W1 b1 W2 b2 ga be x0 x1 x2 x3 x4 x5 x6 x7 x8 x9 x10 x11 x12 x13 x14 t ht H, idx47_48_eq]

omit H in
theorem idx51_eq (r : Fin 50000) (q : Fin 128) : Cert.ReferenceIdeal.Read.idx_main_v51 (ix2 r q) = ix2 r (0 : Fin 1) :=
  funext fun a => by match a with | ⟨0, _⟩ => rfl | ⟨1, _⟩ => rfl
omit H in
theorem idx58_eq (r : Fin 50000) (q : Fin 128) : Cert.ReferenceIdeal.Read.idx_main_v58 (ix2 r q) = ix2 r (0 : Fin 1) :=
  funext fun a => by match a with | ⟨0, _⟩ => rfl | ⟨1, _⟩ => rfl
omit H in
theorem idx63_eq (r : Fin 50000) (q : Fin 128) : Cert.ReferenceIdeal.Read.idx_main_v63 (ix2 r q) = ix2 r (0 : Fin 1) :=
  funext fun a => by match a with | ⟨0, _⟩ => rfl | ⟨1, _⟩ => rfl
omit H in
theorem idx54_55_eq (r : Fin 50000) (u : Fin 1) (k : Fin 128) :
    Cert.ReferenceIdeal.Read.idx_main_v54 (Cert.ReferenceIdeal.Read.idx_main_v55 (ix2 r u)) k = ix2 r k :=
  funext fun a => by match a with | ⟨0, _⟩ => rfl | ⟨1, _⟩ => rfl
omit H in
theorem idx65_66_eq (r : Fin 50000) (q : Fin 128) :
    Cert.ReferenceIdeal.Read.idx_main_v65 (Cert.ReferenceIdeal.Read.idx_main_v66 (ix2 r q)) = ix1 q :=
  funext fun a => by match a with | ⟨0, _⟩ => rfl
omit H in
theorem idx68_69_eq (r : Fin 50000) (q : Fin 128) :
    Cert.ReferenceIdeal.Read.idx_main_v68 (Cert.ReferenceIdeal.Read.idx_main_v69 (ix2 r q)) = ix1 q :=
  funext fun a => by match a with | ⟨0, _⟩ => rfl

/-- `y` less its row mean, as the reference computes it for the variance … -/
theorem cen52_eq (p : Fin 5000) (q : Fin 128) : k1_pay4 X A W1 b1 W2 b2 (ix2 p q) = R52 (ix2 (row t ht p) q) := by
  rw [Cert.ReferenceIdeal.Read.val_main_v52_apply, Cert.ReferenceIdeal.Read.val_main_v51_apply, idx51_eq]
  rw [pay4_eq, subf_apply, broadcastTo_a1_ab_apply,
    y_eq X A W1 b1 W2 b2 ga be x0 x1 x2 x3 x4 x5 x6 x7 x8 x9 x10 x11 x12 x13 x14 t ht H,
    mean_eq X A W1 b1 W2 b2 ga be x0 x1 x2 x3 x4 x5 x6 x7 x8 x9 x10 x11 x12 x13 x14 t ht H]
  rfl

/-- … and as it computes it again for the normalised output: the same value. -/
theorem cen59_eq (p : Fin 5000) (q : Fin 128) : k1_pay4 X A W1 b1 W2 b2 (ix2 p q) = R59 (ix2 (row t ht p) q) := by
  rw [Cert.ReferenceIdeal.Read.val_main_v59_apply, Cert.ReferenceIdeal.Read.val_main_v58_apply, idx58_eq]
  rw [pay4_eq, subf_apply, broadcastTo_a1_ab_apply,
    y_eq X A W1 b1 W2 b2 ga be x0 x1 x2 x3 x4 x5 x6 x7 x8 x9 x10 x11 x12 x13 x14 t ht H,
    mean_eq X A W1 b1 W2 b2 ga be x0 x1 x2 x3 x4 x5 x6 x7 x8 x9 x10 x11 x12 x13 x14 t ht H]
  rfl

/-- The reciprocal root of the row variance plus the small constant. -/
theorem rstd_eq (p : Fin 5000) (u : Fin 1) : k1_pay5 X A W1 b1 W2 b2 (ix2 p u) = R62 (ix2 (row t ht p) u) := by
  rw [Cert.ReferenceIdeal.Read.val_main_v62_apply, Cert.ReferenceIdeal.Read.val_main_v61_apply, Cert.ReferenceIdeal.Read.val_main_v57_apply,
    Cert.ReferenceIdeal.Read.val_main_v55_apply, Cert.ReferenceIdeal.Read.val_main_v54_apply, Cert.ReferenceIdeal.Read.val_main_v56_apply,
    Cert.ReferenceIdeal.Read.val_main_cst_6_apply, Cert.ReferenceIdeal.Read.val_main_v60_apply, Cert.ReferenceIdeal.Read.val_main_cst_7_apply,
    Cert.ReferenceIdeal.Read.val_main_cst_5_apply]
  rw [pay5_eq, rsqrt_apply, addf_apply, divf_apply, shapeCast_a_a1_apply, rowSum_apply, broadcast_apply, broadcast_apply]
  simp only [Ideal.hostUnary_rsqrt_def, Ideal.addf_def, Ideal.hostDivf_def, Ideal.ofBits_def, Ideal.ofBits_zero_f32, zero_add]
  refine congrArg (fun s => Ideal.rsqrt (Ideal.div s (Ideal.ofBits .f32 0x43000000#32) + Ideal.ofBits .f32 0x3727C5AC#32)) (Finset.sum_congr rfl fun k _ => ?_)
  rw [mulf_apply, Cert.ReferenceIdeal.Read.val_main_v53_apply, idx54_55_eq,
    cen52_eq X A W1 b1 W2 b2 ga be x0 x1 x2 x3 x4 x5 x6 x7 x8 x9 x10 x11 x12 x13 x14 t ht H]
  rfl

/-- The block's output `(y − mean) · rsqrt(var + ε) · γ + β` is the reference's last stage on the block's rows. -/
theorem out_eq (p : Fin 5000) (q : Fin 128) :
    k1_pay1 (k1_pay4 X A W1 b1 W2 b2) (k1_pay5 X A W1 b1 W2 b2) ga be (ix2 p q) = R70 (ix2 (row t ht p) q) := by
  rw [Cert.ReferenceIdeal.Read.val_main_v70_apply, Cert.ReferenceIdeal.Read.val_main_v67_apply, Cert.ReferenceIdeal.Read.val_main_v64_apply,
    Cert.ReferenceIdeal.Read.val_main_v63_apply, Cert.ReferenceIdeal.Read.val_main_v66_apply, Cert.ReferenceIdeal.Read.val_main_v65_apply,
    Cert.ReferenceIdeal.Read.val_main_v69_apply, Cert.ReferenceIdeal.Read.val_main_v68_apply, idx63_eq, idx65_66_eq, idx68_69_eq]
  rw [pay1_eq, addf_apply, mulf_apply, mulf_apply, broadcastTo_a1_ab_apply, broadcastTo_1b_ab_apply, broadcastTo_1b_ab_apply,
    shapeCast_self, shapeCast_self, H.hga, H.hbe,
    cen59_eq X A W1 b1 W2 b2 ga be x0 x1 x2 x3 x4 x5 x6 x7 x8 x9 x10 x11 x12 x13 x14 t ht H,
    rstd_eq X A W1 b1 W2 b2 ga be x0 x1 x2 x3 x4 x5 x6 x7 x8 x9 x10 x11 x12 x13 x14 t ht H]
  rfl

end Block

/-! ## From the blocks to the array -/

section Array

theorem zero_offsets : (![0, 0] : Fin 2 → Nat) = fun _ => 0 := funext fun a => by fin_cases a <;> rfl

/-- The printed index maps, decided over the ten points: the two row-blocked inputs and the output sit at block
    `(t, 0)`, the six parameter arrays at block `(0, 0)`. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

theorem lt_ten (t : Fin cfg1.N) : t.val < 10 := by
  have h := t.isLt
  have hN : cfg1.N = 10 := N_1
  omega

/-- Block `t` of the node features is rows `5000 t …` of the array. -/
theorem blk0_apply (c : Dev nD) (t : Fin cfg1.N) (p : Fin 5000) (q : Fin 128) :
    (iblk1 V c 0 t : Vec Ideal S5000x128 .f32) (ix2 p q) = (V c main_arg0 : S50000x128.Idx → EReal) (ix2 (row t.val (lt_ten t) p) q) := by
  obtain ⟨⟨e0, e1⟩, -⟩ := block_indices t
  unfold iblk1
  rw [View.read_apply]
  show V c main_arg0 _ = V c main_arg0 _
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- Block `t` of the aggregated messages likewise. -/
theorem blk1_apply (c : Dev nD) (t : Fin cfg1.N) (p : Fin 5000) (q : Fin 128) :
    (iblk1 V c 1 t : Vec Ideal S5000x128 .f32) (ix2 p q) = (V c main_v12 : S50000x128.Idx → EReal) (ix2 (row t.val (lt_ten t) p) q) := by
  obtain ⟨-, ⟨e0, e1⟩, -⟩ := block_indices t
  unfold iblk1
  rw [View.read_apply]
  show V c main_v12 _ = V c main_v12 _
  congr 1
  funext a; apply Fin.ext
  match a with
  | ⟨0, _⟩ => show win1_1.index t (0 : Fin 2) * 5000 + 1 * p.val = 5000 * t.val + p.val; omega
  | ⟨1, _⟩ => show win1_1.index t (1 : Fin 2) * 128 + 1 * q.val = q.val; omega

/-- The parameter windows' one block is the whole array, at every point. -/
theorem blk2_apply (c : Dev nD) (t : Fin cfg1.N) (j k : Fin 256) :
    (iblk1 V c 2 t : Vec Ideal S256x256 .f32) (ix2 j k) = (V c main_arg9 : S256x256.Idx → EReal) (ix2 j k) := by
  obtain ⟨-, -, ⟨e0, e1⟩, -⟩ := block_indices t
  unfold iblk1
  rw [View.read_apply]
  show V c main_arg9 _ = V c main_arg9 _
  congr 1
  funext a; apply Fin.ext
  match a with
  | ⟨0, _⟩ => show win1_2.index t (0 : Fin 2) * 256 + 1 * j.val = j.val; omega
  | ⟨1, _⟩ => show win1_2.index t (1 : Fin 2) * 256 + 1 * k.val = k.val; omega

theorem blk3_apply (c : Dev nD) (t : Fin cfg1.N) (u : Fin 1) (k : Fin 256) :
    (iblk1 V c 3 t : Vec Ideal S1x256 .f32) (ix2 u k) = (V c main_v13 : S1x256.Idx → EReal) (ix2 u k) := by
  obtain ⟨-, -, -, ⟨e0, e1⟩, -⟩ := block_indices t
  unfold iblk1
  rw [View.read_apply]
  show V c main_v13 _ = V c main_v13 _
  congr 1
  funext a; apply Fin.ext
  match a with
  | ⟨0, _⟩ => show win1_3.index t (0 : Fin 2) * 1 + 1 * u.val = u.val; omega
  | ⟨1, _⟩ => show win1_3.index t (1 : Fin 2) * 256 + 1 * k.val = k.val; omega

theorem blk4_apply (c : Dev nD) (t : Fin cfg1.N) (k : Fin 256) (q : Fin 128) :
    (iblk1 V c 4 t : Vec Ideal S256x128 .f32) (ix2 k q) = (V c main_arg11 : S256x128.Idx → EReal) (ix2 k q) := by
  obtain ⟨-, -, -, -, ⟨e0, e1⟩, -⟩ := block_indices t
  unfold iblk1
  rw [View.read_apply]
  show V c main_arg11 _ = V c main_arg11 _
  congr 1
  funext a; apply Fin.ext
  match a with
  | ⟨0, _⟩ => show win1_4.index t (0 : Fin 2) * 256 + 1 * k.val = k.val; omega
  | ⟨1, _⟩ => show win1_4.index t (1 : Fin 2) * 128 + 1 * q.val = q.val; omega

theorem blk5_apply (c : Dev nD) (t : Fin cfg1.N) (u : Fin 1) (q : Fin 128) :
    (iblk1 V c 5 t : Vec Ideal S1x128 .f32) (ix2 u q) = (V c main_v14 : S1x128.Idx → EReal) (ix2 u q) := by
  obtain ⟨-, -, -, -, -, ⟨e0, e1⟩, -⟩ := block_indices t
  unfold iblk1
  rw [View.read_apply]
  show V c main_v14 _ = V c main_v14 _
  congr 1
  funext a; apply Fin.ext
  match a with
  | ⟨0, _⟩ => show win1_5.index t (0 : Fin 2) * 1 + 1 * u.val = u.val; omega
  | ⟨1, _⟩ => show win1_5.index t (1 : Fin 2) * 128 + 1 * q.val = q.val; omega

theorem blk6_apply (c : Dev nD) (t : Fin cfg1.N) (u : Fin 1) (q : Fin 128) :
    (iblk1 V c 6 t : Vec Ideal S1x128 .f32) (ix2 u q) = (V c main_v15 : S1x128.Idx → EReal) (ix2 u q) := by
  obtain ⟨-, -, -, -, -, -, ⟨e0, e1⟩, -⟩ := block_indices t
  unfold iblk1
  rw [View.read_apply]
  show V c main_v15 _ = V c main_v15 _
  congr 1
  funext a; apply Fin.ext
  match a with
  | ⟨0, _⟩ => show win1_6.index t (0 : Fin 2) * 1 + 1 * u.val = u.val; omega
  | ⟨1, _⟩ => show win1_6.index t (1 : Fin 2) * 128 + 1 * q.val = q.val; omega

theorem blk7_apply (c : Dev nD) (t : Fin cfg1.N) (u : Fin 1) (q : Fin 128) :
    (iblk1 V c 7 t : Vec Ideal S1x128 .f32) (ix2 u q) = (V c main_v16 : S1x128.Idx → EReal) (ix2 u q) := by
  obtain ⟨-, -, -, -, -, -, -, ⟨e0, e1⟩, -⟩ := block_indices t
  unfold iblk1
  rw [View.read_apply]
  show V c main_v16 _ = V c main_v16 _
  congr 1
  funext a; apply Fin.ext
  match a with
  | ⟨0, _⟩ => show win1_7.index t (0 : Fin 2) * 1 + 1 * u.val = u.val; omega
  | ⟨1, _⟩ => show win1_7.index t (1 : Fin 2) * 128 + 1 * q.val = q.val; omega

end Array

section Final

/-- The eight input blocks at point `t` are block `t` of the reference's inputs. -/
theorem blk_inputs (c : Dev nD)
    (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (x9 : (⟨S256x256, .f32⟩ : BufTy).Contents (Elt Ideal)) (x10 : (⟨S256, .f32⟩ : BufTy).Contents (Elt Ideal)) (x11 : (⟨S256x128, .f32⟩ : BufTy).Contents (Elt Ideal)) (x12 x13 x14 : (⟨S128, .f32⟩ : BufTy).Contents (Elt Ideal))
    (hx : V c main_arg0 = x0)
    (hag : V c main_v12 = Cert.ReferenceIdeal.Read.val_main_v35 (F := Ideal) x0 x1 x2 x3 x4 x5 x6 x7 x8)
    (hWn1 : V c main_arg9 = x9)
    (hbn1 : ∀ k : Fin 256, (V c main_v13 : S1x256.Idx → EReal) (ix2 (0 : Fin 1) k) = x10 (ix1 k))
    (hWn2 : V c main_arg11 = x11)
    (hbn2 : ∀ k : Fin 128, (V c main_v14 : S1x128.Idx → EReal) (ix2 (0 : Fin 1) k) = x12 (ix1 k))
    (hga : ∀ k : Fin 128, (V c main_v15 : S1x128.Idx → EReal) (ix2 (0 : Fin 1) k) = x13 (ix1 k))
    (hbe : ∀ k : Fin 128, (V c main_v16 : S1x128.Idx → EReal) (ix2 (0 : Fin 1) k) = x14 (ix1 k))
    (t : Fin cfg1.N) :
    Blk (iblk1 V c 0 t) (iblk1 V c 1 t) (iblk1 V c 2 t) (iblk1 V c 3 t) (iblk1 V c 4 t) (iblk1 V c 5 t) (iblk1 V c 6 t) (iblk1 V c 7 t) x0 x1 x2 x3 x4 x5 x6 x7 x8 x9 x10 x11 x12 x13 x14 t.val (lt_ten t) where
  hX p q := by rw [blk0_apply, hx]
  hA p q := by rw [blk1_apply, hag]
  hW1 j k := by rw [blk2_apply, hWn1]
  hb1 k := by rw [blk3_apply, hbn1]
  hW2 k q := by rw [blk4_apply, hWn2]
  hb2 q := by rw [blk5_apply, hbn2]
  hga q := by rw [blk6_apply, hga]
  hbe q := by rw [blk7_apply, hbe]

/-- What point `t` writes back is block `t` of the reference's last stage. -/
theorem written_back_eq (c : Dev nD)
    (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (x9 : (⟨S256x256, .f32⟩ : BufTy).Contents (Elt Ideal)) (x10 : (⟨S256, .f32⟩ : BufTy).Contents (Elt Ideal)) (x11 : (⟨S256x128, .f32⟩ : BufTy).Contents (Elt Ideal)) (x12 x13 x14 : (⟨S128, .f32⟩ : BufTy).Contents (Elt Ideal))
    (hx : V c main_arg0 = x0)
    (hag : V c main_v12 = Cert.ReferenceIdeal.Read.val_main_v35 (F := Ideal) x0 x1 x2 x3 x4 x5 x6 x7 x8)
    (hWn1 : V c main_arg9 = x9)
    (hbn1 : ∀ k : Fin 256, (V c main_v13 : S1x256.Idx → EReal) (ix2 (0 : Fin 1) k) = x10 (ix1 k))
    (hWn2 : V c main_arg11 = x11)
    (hbn2 : ∀ k : Fin 128, (V c main_v14 : S1x128.Idx → EReal) (ix2 (0 : Fin 1) k) = x12 (ix1 k))
    (hga : ∀ k : Fin 128, (V c main_v15 : S1x128.Idx → EReal) (ix2 (0 : Fin 1) k) = x13 (ix1 k))
    (hbe : ∀ k : Fin 128, (V c main_v16 : S1x128.Idx → EReal) (ix2 (0 : Fin 1) k) = x14 (ix1 k))
    (t : Fin cfg1.N) :
    (dat1 (F := Ideal) V c).flushed 8 t
      = ((cfg1.win 8).blk t).view.read (Elt Ideal) (Cert.ReferenceIdeal.Read.val_main_v70 (F := Ideal) x0 x1 x2 x3 x4 x5 x6 x7 x8 x9 x10 x11 x12 x13 x14) := by
  show (cfg1.win 8).cut (grid1.coords t) ((dat1 (F := Ideal) V c).after 8 t) = _
  rw [after1_8]
  unfold out1_8
  rw [View.canon_unit_zero zero_offsets]
  simp only [View.ld_unit_zero (S := S5000x128) zero_offsets, View.ld_unit_zero (S := S256x256) zero_offsets, View.ld_unit_zero (S := S1x256) zero_offsets,
    View.ld_unit_zero (S := S256x128) zero_offsets, View.ld_unit_zero (S := S1x128) zero_offsets]
  obtain ⟨-, -, -, -, -, -, -, -, ⟨e0, e1⟩⟩ := block_indices t
  funext j
  obtain ⟨p, q, rfl⟩ : ∃ (p : Fin 5000) (q : Fin 128), j = ix2 p q := ⟨j 0, j 1, eq_ix2 j⟩
  show k1_pay1 (k1_pay4 (iblk1 V c 0 t) (iblk1 V c 1 t) (iblk1 V c 2 t) (iblk1 V c 3 t) (iblk1 V c 4 t) (iblk1 V c 5 t))
      (k1_pay5 (iblk1 V c 0 t) (iblk1 V c 1 t) (iblk1 V c 2 t) (iblk1 V c 3 t) (iblk1 V c 4 t) (iblk1 V c 5 t)) (iblk1 V c 6 t) (iblk1 V c 7 t) (ix2 p q)
    = Cert.ReferenceIdeal.Read.val_main_v70 (F := Ideal) x0 x1 x2 x3 x4 x5 x6 x7 x8 x9 x10 x11 x12 x13 x14 (((cfg1.win 8).blk t).view.emb (ix2 p q))
  refine (out_eq (iblk1 V c 0 t) (iblk1 V c 1 t) (iblk1 V c 2 t) (iblk1 V c 3 t) (iblk1 V c 4 t) (iblk1 V c 5 t) (iblk1 V c 6 t) (iblk1 V c 7 t) x0 x1 x2 x3 x4 x5 x6 x7 x8 x9 x10 x11 x12 x13 x14 t.val (lt_ten t)
    (blk_inputs V c x0 x1 x2 x3 x4 x5 x6 x7 x8 x9 x10 x11 x12 x13 x14 hx hag hWn1 hbn1 hWn2 hbn2 hga hbe t) p q).trans ?_
  refine congrArg (Cert.ReferenceIdeal.Read.val_main_v70 (F := Ideal) x0 x1 x2 x3 x4 x5 x6 x7 x8 x9 x10 x11 x12 x13 x14) ?_
  funext a; apply Fin.ext
  match a with
  | ⟨0, _⟩ => show 5000 * t.val + p.val = win1_8.index t (0 : Fin 2) * 5000 + 1 * p.val; omega
  | ⟨1, _⟩ => show q.val = win1_8.index t (1 : Fin 2) * 128 + 1 * q.val; omega

/-- An index of the output array is in point `t`'s block iff each coordinate is in the block's range on its axis. -/
theorem mem_out_block (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v17).slice (win1_8.rect t)).set ↔ _
  rw [View.set_slice_whole, Rect.mem_set_unit]
  exact Iff.rfl

/-- The ten blocks of 5000 rows tile the 50000 rows: row `r` is in block `r / 5000`. -/
theorem rows_covered (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, -, -, ⟨e0, e1⟩⟩ := block_indices t
  have et : t.val = (i 0).val / 5000 := rfl
  refine ⟨t, flush1_8 t, ?_⟩
  rw [mem_out_block]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- The node region's output array after its run is the reference's node network and layer normalisation of the same inputs. -/
theorem final1 (c : Dev nD)
    (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 : (⟨S288x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal)) (x8 : (⟨S128, .f32⟩ : BufTy).Contents (Elt Ideal))
    (x9 : (⟨S256x256, .f32⟩ : BufTy).Contents (Elt Ideal)) (x10 : (⟨S256, .f32⟩ : BufTy).Contents (Elt Ideal)) (x11 : (⟨S256x128, .f32⟩ : BufTy).Contents (Elt Ideal)) (x12 x13 x14 : (⟨S128, .f32⟩ : BufTy).Contents (Elt Ideal))
    (hx : V c main_arg0 = x0)
    (hag : V c main_v12 = Cert.ReferenceIdeal.Read.val_main_v35 (F := Ideal) x0 x1 x2 x3 x4 x5 x6 x7 x8)
    (hWn1 : V c main_arg9 = x9)
    (hbn1 : ∀ k : Fin 256, (V c main_v13 : S1x256.Idx → EReal) (ix2 (0 : Fin 1) k) = x10 (ix1 k))
    (hWn2 : V c main_arg11 = x11)
    (hbn2 : ∀ k : Fin 128, (V c main_v14 : S1x128.Idx → EReal) (ix2 (0 : Fin 1) k) = x12 (ix1 k))
    (hga : ∀ k : Fin 128, (V c main_v15 : S1x128.Idx → EReal) (ix2 (0 : Fin 1) k) = x13 (ix1 k))
    (hbe : ∀ k : Fin 128, (V c main_v16 : S1x128.Idx → EReal) (ix2 (0 : Fin 1) k) = x14 (ix1 k)) :
    (dat1 (F := Ideal) V c).arrAt 8 cfg1.N
      = Cert.ReferenceIdeal.Read.val_main_v70 (F := Ideal) x0 x1 x2 x3 x4 x5 x6 x7 x8 x9 x10 x11 x12 x13 x14 :=
  (dat1 (F := Ideal) V c).arrAt_eq_of_cover 8 (Cert.ReferenceIdeal.Read.val_main_v70 (F := Ideal) x0 x1 x2 x3 x4 x5 x6 x7 x8 x9 x10 x11 x12 x13 x14)
    (fun t _ => written_back_eq V c x0 x1 x2 x3 x4 x5 x6 x7 x8 x9 x10 x11 x12 x13 x14 hx hag hWn1 hbn1 hWn2 hbn2 hga hbe t) rows_covered

end Final

end Cert.KernelIdeal.NodeRegion

end
-- ==== Proof.IndexRange.lean ====
import proofs.«416344_j59064390255196_1_alg».proof.Proof.Gen.KernelIdeal.Frame
import proofs.«416344_j59064390255196_1_alg».proof.Proof.Gen.ReferenceIdeal.Read
import proofs.«416344_j59064390255196_1_alg».proof.Pre_finite_inputs
import Idealize.ShloMosaic.Lib.Pipeline.Value
import Idealize.ShloMosaic.Lib.ValueIdx
import Idealize.ShloMosaic.Lib.ReduceAll
import Idealize.ShloMosaic.Lib.StableHlo.Predicate

set_option maxRecDepth 16384

noncomputable section

namespace Cert.KernelIdeal.IndexRange

open Cert.KernelIdeal Cert.KernelIdeal.Gen
open Idealize.ShloMosaic Idealize.ShloMosaic.TcCoe Idealize.SL.Sem Idealize.ShloMosaic.ValueIdx

variable {F : FTy → Type} [FloatOps F]

/-- The kernel program's row gather with fill: the index wrapped when negative, the row gathered at it, and the
    row replaced by the fill pattern where the wrapped index is outside [0, 49999]. -/
def takeFill (x0 : (⟨S50000x128, .f32⟩ : BufTy).Contents (Elt F)) (r : (⟨S800000, .i32⟩ : BufTy).Contents (Elt F)) :
    (⟨S800000x128, .f32⟩ : BufTy).Contents (Elt F) :=
  let v5 : (⟨S800000x1, .i32⟩ : BufTy).Contents (Elt F) := broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
  select
    (broadcastInDim S800000x128 ![0] bcast_S800000_S800000x128_0
      ((fun x v => Host.reduce IntOp.andi x v reducesTo_S800000x1_S800000_d1 h_S_)
        (andi (cmpi .sge v5 (broadcastInDim S800000x1 ![] bcast_S_S800000x1 (constantI S_ 32 0#32)))
          (cmpi .sle v5 (broadcastInDim S800000x1 ![0, 1] bcast_S1x1_S800000x1_0_1
            (broadcastInDim S1x1 ![1] bcast_S1_S1x1_1 (constantI S1 32 49999#32)))))
        (constantI S_ 1 1#1)))
    (Host.gather gather_S50000x128_S800000x1_S800000x128_1_0_n_n_0_1_1128 x0 v5)
    (broadcastInDim S800000x128 ![] bcast_S_S800000x128 (constant S_ .f32 0x7FC00000#32))

/-- The rank-zero shape has one index. -/
instance : Subsingleton S_.Idx := ⟨fun a b => funext fun d => d.elim0⟩

/-- Under the precondition every entry of the edge index array is a node number, 0 ≤ · < 50000 (read signed). -/
theorem range_of_pre [Cert.Pre_finite_inputs.Facts]
    (a0 : (⟨S50000x128, .f32⟩ : BufTy).Contents (Elt Ideal)) (a1 : (⟨S2x800000, .i32⟩ : BufTy).Contents (Elt Ideal))
    (a2 : (⟨S800000x32, .f32⟩ : BufTy).Contents (Elt Ideal)) (a3 : (⟨S288x256, .f32⟩ : BufTy).Contents (Elt Ideal))
    (a4 : (⟨S256, .f32⟩ : BufTy).Contents (Elt Ideal)) (a5 : (⟨S256x256, .f32⟩ : BufTy).Contents (Elt Ideal))
    (a6 : (⟨S256, .f32⟩ : BufTy).Contents (Elt Ideal)) (a7 : (⟨S256x128, .f32⟩ : BufTy).Contents (Elt Ideal))
    (a8 : (⟨S128, .f32⟩ : BufTy).Contents (Elt Ideal)) (a9 : (⟨S256x256, .f32⟩ : BufTy).Contents (Elt Ideal))
    (a10 : (⟨S256, .f32⟩ : BufTy).Contents (Elt Ideal)) (a11 : (⟨S256x128, .f32⟩ : BufTy).Contents (Elt Ideal))
    (a12 a13 a14 : (⟨S128, .f32⟩ : BufTy).Contents (Elt Ideal))
    (h : Cert.Pre_finite_inputs.fn (F := Ideal) a0 a1 a2 a3 a4 a5 a6 a7 a8 a9 a10 a11 a12 a13 a14 = (fun _ => 1#1)) :
    ∀ i : S2x800000.Idx, 0 ≤ (a1 i).toInt ∧ (a1 i).toInt < 50000 := by
  intro i
  -- the predicate at its one index; its outermost conjunction's second component is the reduction over the index array
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  have e2 := (IntOp.andi_eq_one.1 e).2
  -- a conjunction over every entry that is 1 is 1 at entry i
  have e3 := Host.reduce_andi_all _ _ _ _ _ e2 i
  obtain ⟨h0, h1⟩ := IntOp.andi_eq_one.1 e3
  -- the two signed comparisons against the splat constants 0 and 50000
  have g0 : (0#32 : BitVec 32).toInt ≤ (a1 i).toInt := IntOp.cmpi_sge.1 h0
  have g1 : (a1 i).toInt < (50000#32 : BitVec 32).toInt := IntOp.cmpi_slt.1 h1
  have c0 : (0#32 : BitVec 32).toInt = 0 := by decide
  have c1 : (50000#32 : BitVec 32).toInt = 50000 := by decide
  rw [c0] at g0
  rw [c1] at g1
  exact ⟨g0, g1⟩

/-! ## One word: the wrap leaves a node number alone, and the range test passes it -/

/-- A word that is not negative read signed is not wrapped. -/
theorem wrap_word (w : BitVec 32) (h0 : 0 ≤ w.toInt) :
    Scalar.select (IntOp.cmpi .slt w 0#32) (IntOp.addi w 50000#32) w = w := by
  have c0 : (0#32 : BitVec 32).toInt = 0 := by decide
  have hn : ¬ IntOp.cmpi .slt w 0#32 = 1#1 := by
    rw [IntOp.cmpi_slt, c0]; omega
  exact if_neg hn

/-- The range test of the wrapped word, 0 ≤ · ≤ 49999 signed, is 1 at a node number. -/
theorem mask_word (w : BitVec 32) (h0 : 0 ≤ w.toInt) (h1 : w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have c0 : (0#32 : BitVec 32).toInt = 0 := by decide
  have c1 : (49999#32 : BitVec 32).toInt = 49999 := by decide
  rw [wrap_word w h0, IntOp.andi_eq_one, IntOp.cmpi_sge, IntOp.cmpi_sle, c0, c1]
  exact ⟨h0, by omega⟩

/-! ## Arrays of ones: a conjunction of ones, a broadcast of ones, a select on ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_ones f hf l

/-- A reduction by `and` from the constant 1 of an array of ones is 1 at every result index, whatever the axes. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  unfold Host.reduce
  exact foldl_andi_ones (fun n => x (s.rowMajor.symm n)) (fun n => hx _) _

/-- A broadcast of an array of ones is an array of ones. -/
theorem broadcastInDim_ones {s t : Shape} (dims : Fin s.rank → Fin t.rank) (h : s.BroadcastsInDim t dims)
    (x : s.Idx → BitVec 1) (hx : ∀ i, x i = 1#1) (j : t.Idx) : broadcastInDim t dims h x j = 1#1 := hx _

/-- A select on a condition that is 1 everywhere is its first operand. -/
theorem select_ones {s : Shape} {α : Type} (c : IVec s 1) (a b : s.Idx → α) (hc : ∀ i, c i = 1#1) : select c a b = a := by
  funext i
  show Scalar.select (c i) (a i) (b i) = a i
  rw [hc i]
  exact if_pos rfl

/-! ## The filled gather at a row of node numbers is the plain gather at the wrapped row -/

theorem takeFill_of_range (x0 : (⟨S50000x128, .f32⟩ : BufTy).Contents (Elt Ideal)) (r : (⟨S800000, .i32⟩ : BufTy).Contents (Elt Ideal))
    (hr : ∀ e : S800000.Idx, 0 ≤ (r e).toInt ∧ (r e).toInt < 50000) :
    takeFill (F := Ideal) x0 r
      = Host.gather gather_S50000x128_S800000x1_S800000x128_1_0_n_n_0_1_1128 x0
          (broadcastInDim S800000x1 ![0] bcast_S800000_S800000x1_0
            (select (cmpi .slt r (broadcastInDim S800000 ![] bcast_S_S800000 (constantI S_ 32 0#32)))
              (addi r (broadcastInDim S800000 ![] bcast_S_S800000 (constantI S_ 32 50000#32))) r)) := by
  dsimp only [takeFill]
  -- the fill mask: the row-wise conjunction of the range test, broadcast along the row; every entry of it is 1
  refine select_ones _ _ _ (fun j => ?_)
  refine broadcastInDim_ones _ _ _ (fun k => ?_) j
  refine reduce_andi_ones _ (fun i => ?_) _ _ k
  -- entry i of the range test reads the wrapped row at one entry of r, against the splat constants 0 and 49999
  exact mask_word (r _) (hr _).1 (hr _).2

/-- With every index a node number, the kernel program's filled gather of the source rows is the reference's gather. -/
theorem take_row (x0 : (⟨S50000x128, .f32⟩ : BufTy).Contents (Elt Ideal)) (x1 : (⟨S2x800000, .i32⟩ : BufTy).Contents (Elt Ideal))
    (h : ∀ i : S2x800000.Idx, 0 ≤ (x1 i).toInt ∧ (x1 i).toInt < 50000) :
    takeFill (F := Ideal) x0 (Cert.ReferenceIdeal.Read.val_main_v1 (F := Ideal) x1)
      = Cert.ReferenceIdeal.Read.val_main_v10 (F := Ideal) x0 x1 := by
  rw [takeFill_of_range x0 _ (fun e => by
    rw [Cert.ReferenceIdeal.Read.val_main_v1_apply, Cert.ReferenceIdeal.Read.val_main_v0_apply]; exact h _)]
  -- both sides are the gather of the same table at the same wrapped row, under the two programs' names
  rfl

/-- The same for the destination rows. -/
theorem take_col (x0 : (⟨S50000x128, .f32⟩ : BufTy).Contents (Elt Ideal)) (x1 : (⟨S2x800000, .i32⟩ : BufTy).Contents (Elt Ideal))
    (h : ∀ i : S2x800000.Idx, 0 ≤ (x1 i).toInt ∧ (x1 i).toInt < 50000) :
    takeFill (F := Ideal) x0 (Cert.ReferenceIdeal.Read.val_main_v3 (F := Ideal) x1)
      = Cert.ReferenceIdeal.Read.val_main_v17 (F := Ideal) x0 x1 := by
  rw [takeFill_of_range x0 _ (fun e => by
    rw [Cert.ReferenceIdeal.Read.val_main_v3_apply, Cert.ReferenceIdeal.Read.val_main_v2_apply]; exact h _)]
  rfl

end Cert.KernelIdeal.IndexRange

end
-- ==== Proof.Bridge.lean ====
import proofs.«416344_j59064390255196_1_alg».proof.Defs
import proofs.«416344_j59064390255196_1_alg».proof.Proof.KRun
import proofs.«416344_j59064390255196_1_alg».proof.Proof.EdgeRegion
import proofs.«416344_j59064390255196_1_alg».proof.Proof.NodeRegion
import proofs.«416344_j59064390255196_1_alg».proof.Proof.IndexRange
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- A buffer that no operation of a host stretch writes holds after the stretch what it held before. -/
macro "kept_through" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The host stretches before the edge region -/

/-- A buffer none of the four stretches before the edge region writes is, at the region's entry, as launched. -/
theorem W4_of_kept (c : Dev nD) (b : Ref sig .tc)
    (h3 : StableHlo.after hostOps0_3 (W3 m ρ c) (Proc.devRef .tc b) = W3 m ρ c (Proc.devRef .tc b))
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W4 m ρ c (Proc.devRef .tc b) = m ((c : Thread nD τ).loc b) :=
  h3.trans (h2.trans (h1.trans h0))

theorem W4_arg0 (c : Dev nD) : W4 m ρ c (Proc.devRef .tc main_arg0) = m ((c : Thread nD τ).loc main_arg0) :=
  W4_of_kept m ρ c main_arg0 (by kept_through hostOps0_3) (by kept_through hostOps0_2) (by kept_through hostOps0_1) (by kept_through hostOps0)
theorem W4_arg2 (c : Dev nD) : W4 m ρ c (Proc.devRef .tc main_arg2) = m ((c : Thread nD τ).loc main_arg2) :=
  W4_of_kept m ρ c main_arg2 (by kept_through hostOps0_3) (by kept_through hostOps0_2) (by kept_through hostOps0_1) (by kept_through hostOps0)
theorem W4_arg3 (c : Dev nD) : W4 m ρ c (Proc.devRef .tc main_arg3) = m ((c : Thread nD τ).loc main_arg3) :=
  W4_of_kept m ρ c main_arg3 (by kept_through hostOps0_3) (by kept_through hostOps0_2) (by kept_through hostOps0_1) (by kept_through hostOps0)
theorem W4_arg4 (c : Dev nD) : W4 m ρ c (Proc.devRef .tc main_arg4) = m ((c : Thread nD τ).loc main_arg4) :=
  W4_of_kept m ρ c main_arg4 (by kept_through hostOps0_3) (by kept_through hostOps0_2) (by kept_through hostOps0_1) (by kept_through hostOps0)
theorem W4_arg5 (c : Dev nD) : W4 m ρ c (Proc.devRef .tc main_arg5) = m ((c : Thread nD τ).loc main_arg5) :=
  W4_of_kept m ρ c main_arg5 (by kept_through hostOps0_3) (by kept_through hostOps0_2) (by kept_through hostOps0_1) (by kept_through hostOps0)
theorem W4_arg6 (c : Dev nD) : W4 m ρ c (Proc.devRef .tc main_arg6) = m ((c : Thread nD τ).loc main_arg6) :=
  W4_of_kept m ρ c main_arg6 (by kept_through hostOps0_3) (by kept_through hostOps0_2) (by kept_through hostOps0_1) (by kept_through hostOps0)
theorem W4_arg7 (c : Dev nD) : W4 m ρ c (Proc.devRef .tc main_arg7) = m ((c : Thread nD τ).loc main_arg7) :=
  W4_of_kept m ρ c main_arg7 (by kept_through hostOps0_3) (by kept_through hostOps0_2) (by kept_through hostOps0_1) (by kept_through hostOps0)
theorem W4_arg8 (c : Dev nD) : W4 m ρ c (Proc.devRef .tc main_arg8) = m ((c : Thread nD τ).loc main_arg8) :=
  W4_of_kept m ρ c main_arg8 (by kept_through hostOps0_3) (by kept_through hostOps0_2) (by kept_through hostOps0_1) (by kept_through hostOps0)
theorem W4_arg9 (c : Dev nD) : W4 m ρ c (Proc.devRef .tc main_arg9) = m ((c : Thread nD τ).loc main_arg9) :=
  W4_of_kept m ρ c main_arg9 (by kept_through hostOps0_3) (by kept_through hostOps0_2) (by kept_through hostOps0_1) (by kept_through hostOps0)
theorem W4_arg10 (c : Dev nD) : W4 m ρ c (Proc.devRef .tc main_arg10) = m ((c : Thread nD τ).loc main_arg10) :=
  W4_of_kept m ρ c main_arg10 (by kept_through hostOps0_3) (by kept_through hostOps0_2) (by kept_through hostOps0_1) (by kept_through hostOps0)
theorem W4_arg11 (c : Dev nD) : W4 m ρ c (Proc.devRef .tc main_arg11) = m ((c : Thread nD τ).loc main_arg11) :=
  W4_of_kept m ρ c main_arg11 (by kept_through hostOps0_3) (by kept_through hostOps0_2) (by kept_through hostOps0_1) (by kept_through hostOps0)
theorem W4_arg12 (c : Dev nD) : W4 m ρ c (Proc.devRef .tc main_arg12) = m ((c : Thread nD τ).loc main_arg12) :=
  W4_of_kept m ρ c main_arg12 (by kept_through hostOps0_3) (by kept_through hostOps0_2) (by kept_through hostOps0_1) (by kept_through hostOps0)
theorem W4_arg13 (c : Dev nD) : W4 m ρ c (Proc.devRef .tc main_arg13) = m ((c : Thread nD τ).loc main_arg13) :=
  W4_of_kept m ρ c main_arg13 (by kept_through hostOps0_3) (by kept_through hostOps0_2) (by kept_through hostOps0_1) (by kept_through hostOps0)
theorem W4_arg14 (c : Dev nD) : W4 m ρ c (Proc.devRef .tc main_arg14) = m ((c : Thread nD τ).loc main_arg14) :=
  W4_of_kept m ρ c main_arg14 (by kept_through hostOps0_3) (by kept_through hostOps0_2) (by kept_through hostOps0_1) (by kept_through hostOps0)

/-- The source and destination index rows after the first stretch: the two rows of the edge index array. -/
theorem W1_row (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
theorem W1_col (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
theorem W1_x (c : Dev nD) : W1 m ρ c (Proc.devRef .tc main_arg0) = (m ((c : Thread nD τ).loc main_arg0)) := by
  show StableHlo.after hostOps0 (W0 m ρ c) (Proc.devRef .tc main_arg0) = _
  kept_through hostOps0
theorem W2_x (c : Dev nD) : W2 m ρ c (Proc.devRef .tc main_arg0) = (m ((c : Thread nD τ).loc main_arg0)) :=
  (show StableHlo.after hostOps0_1 (W1 m ρ c) (Proc.devRef .tc main_arg0) = W1 m ρ c (Proc.devRef .tc main_arg0) by kept_through hostOps0_1).trans (W1_x m ρ c)
theorem W2_col (c : Dev nD) : W2 m ρ c (Proc.devRef .tc main_v3) = Cert.ReferenceIdeal.Read.val_main_v3 (F := Ideal) (m ((c : Thread nD τ).loc main_arg1)) :=
  (show StableHlo.after hostOps0_1 (W1 m ρ c) (Proc.devRef .tc main_v3) = W1 m ρ c (Proc.devRef .tc main_v3) by kept_through hostOps0_1).trans (W1_col m ρ c)

/-! Contents move between a buffer and the typed value it holds by a transport along the equality of their
    types; at the literal references below that equality holds by computation and the transport is the identity. -/

/-- Contents carried to a typed reference's buffer and back are the contents. -/
theorem ofBuf_toBuf {T : BufTy} (x : TRef sig T) (v : T.Contents (Elt Ideal)) : x.ofBuf (x.toBuf v) = v := by
  obtain ⟨r, rfl, h1, h2⟩ := x
  rfl
theorem ofBuf_v1 (h1 h2 h3) (v : (Proc.devRef (τ := τ) .tc main_v1).ty.Contents (Elt Ideal)) :
    (TRef.of main_v1 h1 h2 h3 : TRef sig ⟨S800000, .i32⟩).ofBuf v = v := rfl
theorem ofBuf_v3 (h1 h2 h3) (v : (Proc.devRef (τ := τ) .tc main_v3).ty.Contents (Elt Ideal)) :
    (TRef.of main_v3 h1 h2 h3 : TRef sig ⟨S800000, .i32⟩).ofBuf v = v := rfl
theorem ofBuf_x (h1 h2 h3) (v : (Proc.devRef (τ := τ) .tc main_arg0).ty.Contents (Elt Ideal)) :
    (TRef.of main_arg0 h1 h2 h3 : TRef sig ⟨S50000x128, .f32⟩).ofBuf v = v := rfl
theorem toBuf_v4 (h1 h2 h3) (v : (⟨S800000x128, .f32⟩ : BufTy).Contents (Elt Ideal)) :
    (TRef.of main_v4 h1 h2 h3 : TRef sig ⟨S800000x128, .f32⟩).toBuf v = v := rfl
theorem toBuf_v5 (h1 h2 h3) (v : (⟨S800000x128, .f32⟩ : BufTy).Contents (Elt Ideal)) :
    (TRef.of main_v5 h1 h2 h3 : TRef sig ⟨S800000x128, .f32⟩).toBuf v = v := rfl

set_option maxHeartbeats 4000000 in
/-- The second stretch, from any contents: it leaves in its result buffer the filled gather of the node features at the
    source index row. -/
theorem take_stretch_row (Wv : Valuation τ sig (Elt Ideal)) :
    StableHlo.after hostOps0_1 Wv (Proc.devRef .tc main_v4)
      = IndexRange.takeFill (F := Ideal) (Wv (Proc.devRef .tc main_arg0)) (Wv (Proc.devRef .tc main_v1)) := by
  after_results_simp
  simp only [ofBuf_toBuf, ofBuf_v1, ofBuf_x, toBuf_v4]
  rfl

set_option maxHeartbeats 4000000 in
/-- The third stretch likewise, at the destination index row. -/
theorem take_stretch_col (Wv : Valuation τ sig (Elt Ideal)) :
    StableHlo.after hostOps0_2 Wv (Proc.devRef .tc main_v5)
      = IndexRange.takeFill (F := Ideal) (Wv (Proc.devRef .tc main_arg0)) (Wv (Proc.devRef .tc main_v3)) := by
  after_results_simp
  simp only [ofBuf_toBuf, ofBuf_v3, ofBuf_x, toBuf_v5]
  rfl

/-- The gathered source rows at the edge region's entry: the filled gather of the node features at the source indices. -/
theorem W4_xrow (c : Dev nD) : W4 m ρ c (Proc.devRef .tc main_v4)
    = IndexRange.takeFill (F := Ideal) (m ((c : Thread nD τ).loc main_arg0)) (Cert.ReferenceIdeal.Read.val_main_v1 (F := Ideal) (m ((c : Thread nD τ).loc main_arg1))) := by
  have e3 : StableHlo.after hostOps0_3 (W3 m ρ c) (Proc.devRef .tc main_v4) = W3 m ρ c (Proc.devRef .tc main_v4) := by kept_through hostOps0_3
  have e2 : StableHlo.after hostOps0_2 (W2 m ρ c) (Proc.devRef .tc main_v4) = W2 m ρ c (Proc.devRef .tc main_v4) := by kept_through hostOps0_2
  refine e3.trans (e2.trans ((take_stretch_row (W1 m ρ c)).trans ?_))
  exact congrArg₂ (IndexRange.takeFill (F := Ideal)) (W1_x m ρ c) (W1_row m ρ c)

/-- The gathered destination rows likewise. -/
theorem W4_xcol (c : Dev nD) : W4 m ρ c (Proc.devRef .tc main_v5)
    = IndexRange.takeFill (F := Ideal) (m ((c : Thread nD τ).loc main_arg0)) (Cert.ReferenceIdeal.Read.val_main_v3 (F := Ideal) (m ((c : Thread nD τ).loc main_arg1))) := by
  have e3 : StableHlo.after hostOps0_3 (W3 m ρ c) (Proc.devRef .tc main_v5) = W3 m ρ c (Proc.devRef .tc main_v5) := by kept_through hostOps0_3
  refine e3.trans ((take_stretch_col (W2 m ρ c)).trans ?_)
  exact congrArg₂ (IndexRange.takeFill (F := Ideal)) (W2_x m ρ c) (W2_col m ρ c)

/-- A rank-1 array recast as one row reads, at column k of that row, the array's entry k. -/
theorem row_cast_apply {n : Nat} (v : (⟨1, ![n]⟩ : Shape).Idx → EReal) (hc : Shape.ShapeCasts (⟨1, ![n]⟩ : Shape) (⟨2, ![1, n]⟩ : Shape)) (k : Fin n) :
    (shapeCast (⟨2, ![1, n]⟩ : Shape) v hc) (ix2 (0 : Fin 1) k) = v (ix1 k) := by
  refine shapeCast_apply v hc (ix2 (0 : Fin 1) k) (ix1 k) ?_
  rw [Shape.rowMajor_val_two, Shape.rowMajor_val_one]
  show k.val = (0 : Fin 1).val * n + k.val
  simp

/-- The fourth stretch, from any contents, recasts this rank-1 argument as one row. -/
theorem b1_stretch (Wv : Valuation τ sig (Elt Ideal)) :
    StableHlo.after hostOps0_3 Wv (Proc.devRef .tc main_v6) = shapeCast S1x256 (Wv (Proc.devRef .tc main_arg4)) shapeCasts_S256_S1x256 := by
  after_results
  rfl
theorem W4_b1 (c : Dev nD) (k : Fin 256) : (W4 m ρ c (Proc.devRef .tc main_v6) : S1x256.Idx → EReal) (ix2 (0 : Fin 1) k) = (m ((c : Thread nD τ).loc main_arg4)) (ix1 k) := by
  have e' : W3 m ρ c (Proc.devRef .tc main_arg4) = (m ((c : Thread nD τ).loc main_arg4)) :=
    (show StableHlo.after hostOps0_2 (W2 m ρ c) (Proc.devRef .tc main_arg4) = W2 m ρ c (Proc.devRef .tc main_arg4) by kept_through hostOps0_2).trans
      ((show StableHlo.after hostOps0_1 (W1 m ρ c) (Proc.devRef .tc main_arg4) = W1 m ρ c (Proc.devRef .tc main_arg4) by kept_through hostOps0_1).trans
        (show StableHlo.after hostOps0 (W0 m ρ c) (Proc.devRef .tc main_arg4) = W0 m ρ c (Proc.devRef .tc main_arg4) by kept_through hostOps0))
  have e : W4 m ρ c (Proc.devRef .tc main_v6) = shapeCast S1x256 (m ((c : Thread nD τ).loc main_arg4)) shapeCasts_S256_S1x256 :=
    (b1_stretch (W3 m ρ c)).trans (congrArg (fun v => shapeCast S1x256 v shapeCasts_S256_S1x256) e')
  rw [e]
  exact row_cast_apply _ _ k

/-- The fourth stretch, from any contents, recasts this rank-1 argument as one row. -/
theorem b2_stretch (Wv : Valuation τ sig (Elt Ideal)) :
    StableHlo.after hostOps0_3 Wv (Proc.devRef .tc main_v7) = shapeCast S1x256 (Wv (Proc.devRef .tc main_arg6)) shapeCasts_S256_S1x256 := by
  after_results
  rfl
theorem W4_b2 (c : Dev nD) (k : Fin 256) : (W4 m ρ c (Proc.devRef .tc main_v7) : S1x256.Idx → EReal) (ix2 (0 : Fin 1) k) = (m ((c : Thread nD τ).loc main_arg6)) (ix1 k) := by
  have e' : W3 m ρ c (Proc.devRef .tc main_arg6) = (m ((c : Thread nD τ).loc main_arg6)) :=
    (show StableHlo.after hostOps0_2 (W2 m ρ c) (Proc.devRef .tc main_arg6) = W2 m ρ c (Proc.devRef .tc main_arg6) by kept_through hostOps0_2).trans
      ((show StableHlo.after hostOps0_1 (W1 m ρ c) (Proc.devRef .tc main_arg6) = W1 m ρ c (Proc.devRef .tc main_arg6) by kept_through hostOps0_1).trans
        (show StableHlo.after hostOps0 (W0 m ρ c) (Proc.devRef .tc main_arg6) = W0 m ρ c (Proc.devRef .tc main_arg6) by kept_through hostOps0))
  have e : W4 m ρ c (Proc.devRef .tc main_v7) = shapeCast S1x256 (m ((c : Thread nD τ).loc main_arg6)) shapeCasts_S256_S1x256 :=
    (b2_stretch (W3 m ρ c)).trans (congrArg (fun v => shapeCast S1x256 v shapeCasts_S256_S1x256) e')
  rw [e]
  exact row_cast_apply _ _ k

/-- The fourth stretch, from any contents, recasts this rank-1 argument as one row. -/
theorem b3_stretch (Wv : Valuation τ sig (Elt Ideal)) :
    StableHlo.after hostOps0_3 Wv (Proc.devRef .tc main_v8) = shapeCast S1x128 (Wv (Proc.devRef .tc main_arg8)) shapeCasts_S128_S1x128 := by
  after_results
  rfl
theorem W4_b3 (c : Dev nD) (k : Fin 128) : (W4 m ρ c (Proc.devRef .tc main_v8) : S1x128.Idx → EReal) (ix2 (0 : Fin 1) k) = (m ((c : Thread nD τ).loc main_arg8)) (ix1 k) := by
  have e' : W3 m ρ c (Proc.devRef .tc main_arg8) = (m ((c : Thread nD τ).loc main_arg8)) :=
    (show StableHlo.after hostOps0_2 (W2 m ρ c) (Proc.devRef .tc main_arg8) = W2 m ρ c (Proc.devRef .tc main_arg8) by kept_through hostOps0_2).trans
      ((show StableHlo.after hostOps0_1 (W1 m ρ c) (Proc.devRef .tc main_arg8) = W1 m ρ c (Proc.devRef .tc main_arg8) by kept_through hostOps0_1).trans
        (show StableHlo.after hostOps0 (W0 m ρ c) (Proc.devRef .tc main_arg8) = W0 m ρ c (Proc.devRef .tc main_arg8) by kept_through hostOps0))
  have e : W4 m ρ c (Proc.devRef .tc main_v8) = shapeCast S1x128 (m ((c : Thread nD τ).loc main_arg8)) shapeCasts_S128_S1x128 :=
    (b3_stretch (W3 m ρ c)).trans (congrArg (fun v => shapeCast S1x128 v shapeCasts_S128_S1x128) e')
  rw [e]
  exact row_cast_apply _ _ k

/-! ## The edge region's exit and the stretch before the node region -/

/-- With every index a node number, the edge region leaves in its output array the reference's edge network. -/
theorem W5_edge (c : Dev nD) (hr : ∀ i : S2x800000.Idx, 0 ≤ ((m ((c : Thread nD τ).loc main_arg1)) i).toInt ∧ ((m ((c : Thread nD τ).loc main_arg1)) i).toInt < 50000) :
    W5 m ρ c (Proc.devRef .tc main_v9) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W5_arr m ρ c 9).trans
    (EdgeRegion.final0 (V4 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ((W4_xrow m ρ c).trans (IndexRange.take_row _ _ hr))
      ((W4_xcol m ρ c).trans (IndexRange.take_col _ _ hr))
      (W4_arg2 m ρ c) (W4_arg3 m ρ c) (W4_b1 m ρ c) (W4_arg5 m ρ c) (W4_b2 m ρ c) (W4_arg7 m ρ c) (W4_b3 m ρ c))

/-- The destination index row is untouched by the stretches after the first and by the edge region. -/
theorem W5_col (c : Dev nD) : W5 m ρ c (Proc.devRef .tc main_v3) = Cert.ReferenceIdeal.Read.val_main_v3 (F := Ideal) (m ((c : Thread nD τ).loc main_arg1)) :=
  (W5_of_ne m ρ c main_v3 (by decide)).trans
    ((show StableHlo.after hostOps0_3 (W3 m ρ c) (Proc.devRef .tc main_v3) = W3 m ρ c (Proc.devRef .tc main_v3) by kept_through hostOps0_3).trans
      ((show StableHlo.after hostOps0_2 (W2 m ρ c) (Proc.devRef .tc main_v3) = W2 m ρ c (Proc.devRef .tc main_v3) by kept_through hostOps0_2).trans
        (W2_col m ρ c)))

theorem W5_arg0 (c : Dev nD) : W5 m ρ c (Proc.devRef .tc main_arg0) = (m ((c : Thread nD τ).loc main_arg0)) :=
  (W5_of_ne m ρ c main_arg0 (by decide)).trans (W4_arg0 m ρ c)
theorem W5_arg9 (c : Dev nD) : W5 m ρ c (Proc.devRef .tc main_arg9) = (m ((c : Thread nD τ).loc main_arg9)) :=
  (W5_of_ne m ρ c main_arg9 (by decide)).trans (W4_arg9 m ρ c)
theorem W5_arg10 (c : Dev nD) : W5 m ρ c (Proc.devRef .tc main_arg10) = (m ((c : Thread nD τ).loc main_arg10)) :=
  (W5_of_ne m ρ c main_arg10 (by decide)).trans (W4_arg10 m ρ c)
theorem W5_arg11 (c : Dev nD) : W5 m ρ c (Proc.devRef .tc main_arg11) = (m ((c : Thread nD τ).loc main_arg11)) :=
  (W5_of_ne m ρ c main_arg11 (by decide)).trans (W4_arg11 m ρ c)
theorem W5_arg12 (c : Dev nD) : W5 m ρ c (Proc.devRef .tc main_arg12) = (m ((c : Thread nD τ).loc main_arg12)) :=
  (W5_of_ne m ρ c main_arg12 (by decide)).trans (W4_arg12 m ρ c)
theorem W5_arg13 (c : Dev nD) : W5 m ρ c (Proc.devRef .tc main_arg13) = (m ((c : Thread nD τ).loc main_arg13)) :=
  (W5_of_ne m ρ c main_arg13 (by decide)).trans (W4_arg13 m ρ c)
theorem W5_arg14 (c : Dev nD) : W5 m ρ c (Proc.devRef .tc main_arg14) = (m ((c : Thread nD τ).loc main_arg14)) :=
  (W5_of_ne m ρ c main_arg14 (by decide)).trans (W4_arg14 m ρ c)

theorem W6_arg0 (c : Dev nD) : W6 m ρ c (Proc.devRef .tc main_arg0) = (m ((c : Thread nD τ).loc main_arg0)) :=
  (show StableHlo.after hostOps1 (W5 m ρ c) (Proc.devRef .tc main_arg0) = W5 m ρ c (Proc.devRef .tc main_arg0) by kept_through hostOps1).trans (W5_arg0 m ρ c)
theorem W6_arg9 (c : Dev nD) : W6 m ρ c (Proc.devRef .tc main_arg9) = (m ((c : Thread nD τ).loc main_arg9)) :=
  (show StableHlo.after hostOps1 (W5 m ρ c) (Proc.devRef .tc main_arg9) = W5 m ρ c (Proc.devRef .tc main_arg9) by kept_through hostOps1).trans (W5_arg9 m ρ c)
theorem W6_arg11 (c : Dev nD) : W6 m ρ c (Proc.devRef .tc main_arg11) = (m ((c : Thread nD τ).loc main_arg11)) :=
  (show StableHlo.after hostOps1 (W5 m ρ c) (Proc.devRef .tc main_arg11) = W5 m ρ c (Proc.devRef .tc main_arg11) by kept_through hostOps1).trans (W5_arg11 m ρ c)

/-- The stretch before the node region, from any contents: it leaves in the aggregate's buffer the scatter-add, into a
    zero array, of the edge region's output array at the destination index row. -/
theorem scatter_stretch (Wv : Valuation τ sig (Elt Ideal)) :
    StableHlo.after hostOps1 Wv (Proc.devRef .tc main_v12)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (Wv (Proc.devRef .tc main_v3)))
          (Wv (Proc.devRef .tc main_v9)) := by
  after_results

/-- The aggregated messages at the node region's entry: the reference's scatter-add of its edge network. -/
theorem W6_aggr (c : Dev nD) (hr : ∀ i : S2x800000.Idx, 0 ≤ ((m ((c : Thread nD τ).loc main_arg1)) i).toInt ∧ ((m ((c : Thread nD τ).loc main_arg1)) i).toInt < 50000) :
    W6 m ρ c (Proc.devRef .tc main_v12) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (scatter_stretch (W5 m ρ c)).trans ?_
  rw [W5_col m ρ c, W5_edge m ρ c hr]
  rfl

/-- The stretch before the node region, from any contents, recasts this rank-1 argument as one row. -/
theorem bn1_stretch (Wv : Valuation τ sig (Elt Ideal)) :
    StableHlo.after hostOps1 Wv (Proc.devRef .tc main_v13) = shapeCast S1x256 (Wv (Proc.devRef .tc main_arg10)) shapeCasts_S256_S1x256 := by
  after_results
  rfl
theorem W6_bn1 (c : Dev nD) (k : Fin 256) : (W6 m ρ c (Proc.devRef .tc main_v13) : S1x256.Idx → EReal) (ix2 (0 : Fin 1) k) = (m ((c : Thread nD τ).loc main_arg10)) (ix1 k) := by
  have e : W6 m ρ c (Proc.devRef .tc main_v13) = shapeCast S1x256 (m ((c : Thread nD τ).loc main_arg10)) shapeCasts_S256_S1x256 :=
    (bn1_stretch (W5 m ρ c)).trans (congrArg (fun v => shapeCast S1x256 v shapeCasts_S256_S1x256) (W5_arg10 m ρ c))
  rw [e]
  exact row_cast_apply _ _ k

/-- The stretch before the node region, from any contents, recasts this rank-1 argument as one row. -/
theorem bn2_stretch (Wv : Valuation τ sig (Elt Ideal)) :
    StableHlo.after hostOps1 Wv (Proc.devRef .tc main_v14) = shapeCast S1x128 (Wv (Proc.devRef .tc main_arg12)) shapeCasts_S128_S1x128 := by
  after_results
  rfl
theorem W6_bn2 (c : Dev nD) (k : Fin 128) : (W6 m ρ c (Proc.devRef .tc main_v14) : S1x128.Idx → EReal) (ix2 (0 : Fin 1) k) = (m ((c : Thread nD τ).loc main_arg12)) (ix1 k) := by
  have e : W6 m ρ c (Proc.devRef .tc main_v14) = shapeCast S1x128 (m ((c : Thread nD τ).loc main_arg12)) shapeCasts_S128_S1x128 :=
    (bn2_stretch (W5 m ρ c)).trans (congrArg (fun v => shapeCast S1x128 v shapeCasts_S128_S1x128) (W5_arg12 m ρ c))
  rw [e]
  exact row_cast_apply _ _ k

/-- The stretch before the node region, from any contents, recasts this rank-1 argument as one row. -/
theorem gamma_stretch (Wv : Valuation τ sig (Elt Ideal)) :
    StableHlo.after hostOps1 Wv (Proc.devRef .tc main_v15) = shapeCast S1x128 (Wv (Proc.devRef .tc main_arg13)) shapeCasts_S128_S1x128 := by
  after_results
  rfl
theorem W6_gamma (c : Dev nD) (k : Fin 128) : (W6 m ρ c (Proc.devRef .tc main_v15) : S1x128.Idx → EReal) (ix2 (0 : Fin 1) k) = (m ((c : Thread nD τ).loc main_arg13)) (ix1 k) := by
  have e : W6 m ρ c (Proc.devRef .tc main_v15) = shapeCast S1x128 (m ((c : Thread nD τ).loc main_arg13)) shapeCasts_S128_S1x128 :=
    (gamma_stretch (W5 m ρ c)).trans (congrArg (fun v => shapeCast S1x128 v shapeCasts_S128_S1x128) (W5_arg13 m ρ c))
  rw [e]
  exact row_cast_apply _ _ k

/-- The stretch before the node region, from any contents, recasts this rank-1 argument as one row. -/
theorem beta_stretch (Wv : Valuation τ sig (Elt Ideal)) :
    StableHlo.after hostOps1 Wv (Proc.devRef .tc main_v16) = shapeCast S1x128 (Wv (Proc.devRef .tc main_arg14)) shapeCasts_S128_S1x128 := by
  after_results
  rfl
theorem W6_beta (c : Dev nD) (k : Fin 128) : (W6 m ρ c (Proc.devRef .tc main_v16) : S1x128.Idx → EReal) (ix2 (0 : Fin 1) k) = (m ((c : Thread nD τ).loc main_arg14)) (ix1 k) := by
  have e : W6 m ρ c (Proc.devRef .tc main_v16) = shapeCast S1x128 (m ((c : Thread nD τ).loc main_arg14)) shapeCasts_S128_S1x128 :=
    (beta_stretch (W5 m ρ c)).trans (congrArg (fun v => shapeCast S1x128 v shapeCasts_S128_S1x128) (W5_arg14 m ρ c))
  rw [e]
  exact row_cast_apply _ _ k

/-! ## The result -/

/-- With every index a node number, the program's result array ends at the reference's last stage of the launch arguments. -/
theorem result_eq (c : Dev nD) (hr : ∀ i : S2x800000.Idx, 0 ≤ ((m ((c : Thread nD τ).loc main_arg1)) i).toInt ∧ ((m ((c : Thread nD τ).loc main_arg1)) i).toInt < 50000) :
    W7 m ρ c (Proc.devRef .tc main_v17) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W7_arr m ρ c 8).trans
    (NodeRegion.final1 (V6 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      (W6_arg0 m ρ c) (W6_aggr m ρ c hr) (W6_arg9 m ρ c) (W6_bn1 m ρ c) (W6_arg11 m ρ c) (W6_bn2 m ρ c) (W6_gamma m ρ c) (W6_beta m ρ c))

/-- The run of the kernel program with its result at the reference's value of the arguments. -/
theorem run_value (hr : ∀ (c : Dev nD) (i : S2x800000.Idx), 0 ≤ ((m ((c : Thread nD τ).loc main_arg1)) i).toInt ∧ ((m ((c : Thread nD τ).loc main_arg1)) i).toInt < 50000) :
    θ_run defs (onTc (τ := τ) (main (F := Ideal))) ⟨m, fun _ => 0, ρ⟩ (fun r => ∀ c : Dev nD,
      r.2.mem ((c.tc : Thread nD τ).loc main_v17) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c (hr c)), (h c).2⟩) (KRun.run m ρ)

end Cert.KernelIdeal.Bridge

end
-- ==== Proof.lean ====
/-
  The certificate of a message-passing layer: for every edge e, a three-layer perceptron (ReLU between the layers) of
  the row concat[x[row e], x[col e], edge_attr e]; the edge outputs summed into their destination nodes (a scatter-add
  over col); for every node a two-layer perceptron of concat[x, aggregate], added to x, and normalised over its 128
  features (mean and variance by sums divided by 128, (y - mean) · rsqrt(var + eps) · gamma + beta).

  The kernel program computes the two perceptrons in two tiled regions (4000 edges, resp. 5000 nodes, a block; the
  matrix products on operands cast to a narrower float format, which at the ideal instance is the identity) and
  leaves the gathers and the scatter-add to host operations; the reference is host operations throughout. Over the
  extended reals the two programs apply the same operations in the same order to the same values, with one
  exception: the kernel program's gather replaces a row whose index is out of range by a fill value, where the
  reference's gather clamps the index. Under the precondition (every float input finite AND every entry of the
  edge index array a node number in [0, 50000)) no index is out of range, the two gathers agree, and the results
  are equal index by index (Proof/IndexRange.lean, Proof/EdgeRegion.lean, Proof/NodeRegion.lean, Proof/Bridge.lean).
  Finiteness of the float inputs is not used: no step moves a factor across a sum.
-/
import proofs.«416344_j59064390255196_1_alg».proof.Defs
import proofs.«416344_j59064390255196_1_alg».proof.Proof.Gen.Kernel
import proofs.«416344_j59064390255196_1_alg».proof.Proof.Gen.Kernel.Skeleton
import proofs.«416344_j59064390255196_1_alg».proof.Proof.Gen.Kernel.Launch
import proofs.«416344_j59064390255196_1_alg».proof.Proof.Gen.Kernel.Points
import proofs.«416344_j59064390255196_1_alg».proof.Proof.Gen.Kernel.Frame
import proofs.«416344_j59064390255196_1_alg».proof.Proof.Gen.KernelIdeal
import proofs.«416344_j59064390255196_1_alg».proof.Proof.Gen.KernelIdeal.Skeleton
import proofs.«416344_j59064390255196_1_alg».proof.Proof.Gen.KernelIdeal.Launch
import proofs.«416344_j59064390255196_1_alg».proof.Proof.Gen.KernelIdeal.Points
import proofs.«416344_j59064390255196_1_alg».proof.Proof.Gen.KernelIdeal.Frame
import proofs.«416344_j59064390255196_1_alg».proof.Proof.Gen.ReferenceIdeal
import proofs.«416344_j59064390255196_1_alg».proof.Proof.Gen.ReferenceIdeal.Run
import proofs.«416344_j59064390255196_1_alg».proof.Proof.Gen.ReferenceIdeal.Read
import proofs.«416344_j59064390255196_1_alg».proof.Proof.Gen.Pre_finite_inputs
import proofs.«416344_j59064390255196_1_alg».proof.Proof.Bridge
import Idealize.ShloMosaic.Adequacy
import Idealize.ShloMosaic.Init

noncomputable section

namespace Cert.Proof

open Idealize.ShloMosaic Idealize.SL.Sem

/-- The kernel program at the word level runs, and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with the same result: the
    reference's last stage of the arguments. The kernel program's run ends there when every edge index is a node
    number, which the precondition says; the reference's run ends there by its own reading. -/
theorem algebraic : Cert.algebraic_KernelIdeal_ReferenceIdeal := by
  intro m ρ m' ρ' hpre hagree
  refine ⟨_, Cert.KernelIdeal.Bridge.run_value m ρ (fun c => Cert.KernelIdeal.IndexRange.range_of_pre _ _ _ _ _ _ _ _ _ _ _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
